-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S512x512 : Shape := ⟨2, ![512, 512]⟩
abbrev S512 : Shape := ⟨1, ![512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S8x2048x512 .f32) (main_arg1 : FVec F S8x2048x512 .f32) (main_arg2 : FVec F S512x512 .f32) (main_arg3 : FVec F S512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x512 .f32 := Host.absf main_arg1
  let main_cst_0 : FVec F S_ .f32 := constant S_ .f32 0x7F800000#32
  let main_v5 : FVec F S8x2048x512 .f32 := broadcastInDim S8x2048x512 ![] bcast_S_S8x2048x512 main_cst_0
  let main_v6 : IVec S8x2048x512 1 := cmpf .olt main_v4 main_v5
  let main_c_1 : IVec S_ 1 := constantI S_ 1 1#1
  let main_v7 : IVec S_ 1 := (fun x v => Host.reduce IntOp.andi x v reducesTo_S8x2048x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S8x2048x512 : Shape := ⟨3, ![8, 2048, 512]⟩
abbrev S512x512 : Shape := ⟨2, ![512, 512]⟩
abbrev S512 : Shape := ⟨1, ![512]⟩
abbrev S1x2048x512 : Shape := ⟨3, ![1, 2048, 512]⟩
abbrev S1x512 : Shape := ⟨2, ![1, 512]⟩
abbrev S2048x512 : Shape := ⟨2, ![2048, 512]⟩
abbrev S1x512x512 : Shape := ⟨3, ![1, 512, 512]⟩
abbrev S512x1 : Shape := ⟨2, ![512, 1]⟩

abbrev nBuf : Space → Nat
  | .hbm => 5
  | .vmem => 11
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S512x512, .f32⟩
  | .hbm, ⟨3, _⟩ => ⟨S512, .f32⟩
  | .hbm, ⟨4, _⟩ => ⟨S8x2048x512, .f32⟩
  | .local _ .vmem, ⟨0, _⟩ => ⟨S1x2048x512, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S512x512, .f32⟩
  | .local _ .vmem, ⟨5, _⟩ => ⟨S512, .f32⟩
  | .local _ .vmem, ⟨6, _⟩ => ⟨S1x2048x512, .f32⟩
  | .local _ .vmem, ⟨7, _⟩ => ⟨S1x2048x512, .f32⟩
  | .local _ .vmem, ⟨8, _⟩ => ⟨S512x512, .f32⟩
  | .local _ .vmem, ⟨9, _⟩ => ⟨S1x512, .f32⟩
  | .local _ .vmem, ⟨10, _⟩ => ⟨S1x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v15 : BitVec 32 := Scalar.addi c0_i32 c4_i32
  let c1_i32 : BitVec 32 := 1#32
  ⟨c0_i32, v15, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v29 : BitVec 32 := Scalar.muli arg9 c512_i32
  v29
def k0_off1 (k0_t1 : Fin k0_t1_loop.trips) : Fin 3 → Nat :=
  let c0_23 : Index := 0#32
  let c0_i32 : BitVec 32 := 0#32
  let c1_i32 : BitVec 32 := 1#32
  let arg9 : BitVec 32 := Scf.iv c0_i32 c1_i32 k0_t1
  let c512_i32 : BitVec 32 := 512#32
  let v29 : BitVec 32 := Scalar.muli arg9 c512_i32
  let v30 : BitVec 32 := v29
  let v31 : Index := Scalar.indexCast v30
  let c0_24 : Index := 0#32
  ![0, v31.toNat, 0]
@[reducible] def k0_t2_loop : Scf.Loop 32 :=
  let c0_i32_19 : BitVec 32 := 0#32
  let c4_i32_20 : BitVec 32 := 4#32
  let v28 : BitVec 32 := Scalar.addi c0_i32_19 c4_i32_20
  let c1_i32_21 : BitVec 32 := 1#32
  ⟨c0_i32_19, v28, c1_i32_21⟩
def k0_mult2 (k0_t2 : Fin k0_t2_loop.trips) : BitVec 32 :=
  let c0_i32_19 : BitVec 32 := 0#32
  let c1_i32_21 : BitVec 32 := 1#32
  let arg9 : BitVec 32 := Scf.iv c0_i32_19 c1_i32_21 k0_t2
  let c512_i32 : BitVec 32 := 512#32
  let v29 : BitVec 32 := Scalar.muli arg9 c512_i32
  v29
def k0_off2 (k0_t2 : Fin k0_t2_loop.trips) : Fin 3 → Nat :=
  let c0_23 : Index := 0#32
  let c0_i32_19 : BitVec 32 := 0#32
  let c1_i32_21 : BitVec 32 := 1#32
  let arg9 : BitVec 32 := Scf.iv c0_i32_19 c1_i32_21 k0_t2
  let c512_i32 : BitVec 32 := 512#32
  let v29 : BitVec 32 := Scalar.muli arg9 c512_i32
  let v30 : BitVec 32 := v29
  let v31 : Index := Scalar.indexCast v30
  let c0_24 : Index := 0#32
  ![0, v31.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  reduces_S2048x512_S512 : S2048x512.Reduces [0] S512
  shapeCasts_S512_S1x512 : S512.ShapeCasts S1x512
  h_S1x512x512 : 0 < S1x512x512.numel
  shapeCasts_S1x512x512_S512x512 : S1x512x512.ShapeCasts S512x512
  reduces_S512x512_S512 : S512x512.Reduces [1] S512
  shapeCasts_S512_S512x1 : S512.ShapeCasts S512x1
  broadcasts_S512x1_S512x512 : S512x1.Broadcasts S512x512
  broadcasts_S1x512_S512x512 : S1x512.Broadcasts S512x512
  reduces_S512x512_S512_2 : S512x512.Reduces [0] S512
  bitsLt_bf16_f32 : FTy.bits .bf16 < FTy.bits .f32
  inb_S512_S512_0 : ∀ a, (![0] : Fin 1 → Nat) a + S512.size a ≤ S512.size a
  h_S512 : 0 < S512.numel
  shapeCasts_S512x512_S1x512x512 : S512x512.ShapeCasts S1x512x512
  dot_S512x512_S512x512_S512x512_0_0_1_1_n_n_wf : DotDims.WF S512x512 S512x512 S512x512 [0] [0] [1] [1] [] []
  dot_S512x512_S512x512_S512x512_1_1_0_0_n_n_wf : DotDims.WF S512x512 S512x512 S512x512 [1] [1] [0] [0] [] []
  dot_S512x512_S512x512_S512x512_1_0_0_1_n_n_wf : DotDims.WF S512x512 S512x512 S512x512 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S1x512x512.size a ≤ S1x2048x512.size a
  k0_t2_ok : k0_t2_loop.OK
  k0_mult2_dvd : ∀ k0_t2 : Fin k0_t2_loop.trips, 512 ∣ (k0_mult2 k0_t2).toNat
  k0_off2_inb : ∀ k0_t2 : Fin k0_t2_loop.trips, ∀ a, (k0_off2 k0_t2) a + S1x512x512.size a ≤ S1x2048x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x2048x512.size a
  hwx0_0 : ∀ i : grid0.Coords, EltTy.bits .f32 = 32 ∨ (Rect.block (s := S8x2048x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x512.size a
  hwx0_1 : ∀ i : grid0.Coords, EltTy.bits .f32 = 32 ∨ (Rect.block (s := S8x2048x512) S1x2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x512.size a ≤ S8x2048x512.size a
  hwx0_4 : ∀ i : grid0.Coords, EltTy.bits .f32 = 32 ∨ (Rect.block (s := S8x2048x512) S1x2048x512.size (cc0_transform_4 i) (hinb0_4 i)).WholeWords (EltTy.packing .f32)

variable [Facts₀]

def dot_S512x512_S512x512_S512x512_0_0_1_1_n_n : DotDims S512x512 S512x512 S512x512 where
  lhsContracting := [0]
  rhsContracting := [0]
  lhsNonContracting := [1]
  rhsNonContracting := [1]
  lhsBatch := []
  rhsBatch := []
  wf := dot_S512x512_S512x512_S512x512_0_0_1_1_n_n_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S512x512 : Shape := ⟨2, ![512, 512]⟩
abbrev S512 : Shape := ⟨1, ![512]⟩
abbrev S_ : Shape := ⟨0, ![]⟩
abbrev S8x2048 : Shape := ⟨2, ![8, 2048]⟩
abbrev S8x2048x1 : Shape := ⟨3, ![8, 2048, 1]⟩
abbrev S8x512 : Shape := ⟨2, ![8, 512]⟩
abbrev S8x1x512 : Shape := ⟨3, ![8, 1, 512]⟩
abbrev S8x2048x2048 : Shape := ⟨3, ![8, 2048, 2048]⟩
abbrev S1x1x512 : Shape := ⟨3, ![1, 1, 512]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S512x512, .f32⟩
  | .hbm, ⟨3, _⟩ => ⟨S512, .f32⟩
  | .hbm, ⟨4, _⟩ => ⟨S_, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S8x2048x1, .f32⟩
  | .hbm, ⟨10, _⟩ => ⟨S8x2048x512, .f32⟩
  | .hbm, ⟨11, _⟩ => ⟨S8x2048x512, .f32⟩
  | .hbm, ⟨12, _⟩ => ⟨S8x2048x512, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S8x2048x512, .f32⟩
  | .hbm, ⟨17, _⟩ => ⟨S8x2048x512, .f32⟩
  | .hbm, ⟨18, _⟩ => ⟨S_, .f32⟩
  | .hbm, ⟨19, _⟩ => ⟨S8x512, .f32⟩
  | .hbm, ⟨20, _⟩ => ⟨S_, .f32⟩
  | .hbm, ⟨21, _⟩ => ⟨S8x512, .f32⟩
  | .hbm, ⟨22, _⟩ => ⟨S8x512, .f32⟩
  | .hbm, ⟨23, _⟩ => ⟨S8x1x512, .f32⟩
  | .hbm, ⟨24, _⟩ => ⟨S8x2048x512, .f32⟩
  | .hbm, ⟨25, _⟩ => ⟨S8x2048x512, .f32⟩
  | .hbm, ⟨26, _⟩ => ⟨S8x2048x512, .f32⟩
  | .hbm, ⟨27, _⟩ => ⟨S_, .f32⟩
  | .hbm, ⟨28, _⟩ => ⟨S8x512, .f32⟩
  | .hbm, ⟨29, _⟩ => ⟨S8x1x512, .f32⟩
  | .hbm, ⟨30, _⟩ => ⟨S8x2048x512, .f32⟩
  | .hbm, ⟨31, _⟩ => ⟨S8x2048x512, .f32⟩
  | .hbm, ⟨32, _⟩ => ⟨S8x2048x2048, .f32⟩
  | .hbm, ⟨33, _⟩ => ⟨S8x2048x512, .f32⟩
  | .hbm, ⟨34, _⟩ => ⟨S8x2048x512, .f32⟩
  | .hbm, ⟨35, _⟩ => ⟨S1x1x512, .f32⟩
  | .hbm, ⟨36, _⟩ => ⟨S8x2048x512, .f32⟩
  | .hbm, ⟨37, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  reducesTo_S8x2048x512_S8x2048_d2 : S8x2048x512.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x512_0_1_2 : S8x2048x1.BroadcastsInDim S8x2048x512 (![0, 1, 2] : Fin 3 → Fin S8x2048x512.rank)
  reducesTo_S8x2048x512_S8x512_d1 : S8x2048x512.ReducesTo [1] S8x512
  bcast_S_S8x512 : S_.BroadcastsInDim S8x512 (![] : Fin 0 → Fin S8x512.rank)
  bcast_S8x512_S8x1x512_0_2 : S8x512.BroadcastsInDim S8x1x512 (![0, 2] : Fin 2 → Fin S8x1x512.rank)
  bcast_S8x1x512_S8x2048x512_0_1_2 : S8x1x512.BroadcastsInDim S8x2048x512 (![0, 1, 2] : Fin 3 → Fin S8x2048x512.rank)
  bcast_S512_S1x1x512_2 : S512.BroadcastsInDim S1x1x512 (![2] : Fin 1 → Fin S1x1x512.rank)
  bcast_S1x1x512_S8x2048x512_0_1_2 : S1x1x512.BroadcastsInDim S8x2048x512 (![0, 1, 2] : Fin 3 → Fin S8x2048x512.rank)
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]
  dot_S8x2048x512_S512x512_S8x2048x512_2_1_01_0_n_n_wf : DotDims.WF S8x2048x512 S512x512 S8x2048x512 [2] [1] [0, 1] [0] [] []

variable [Facts₀]

def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf
def dot_S8x2048x512_S512x512_S8x2048x512_2_1_01_0_n_n : DotDims S8x2048x512 S512x512 S8x2048x512 where
  lhsContracting := [2]
  rhsContracting := [1]
  lhsNonContracting := [0, 1]
  rhsNonContracting := [0]
  lhsBatch := []
  rhsBatch := []
  wf := dot_S8x2048x512_S512x512_S8x2048x512_2_1_01_0_n_n_wf

class Facts : Prop extends Facts₀ where

variable [Facts]
-- ==== Proof.KerFn.lean ====
/-
  What the kernel's body leaves in its output block, as ONE function of the four input blocks (at the ideal values).

  The body zeroes two accumulators, stores the column maxima of the score block, and then makes two passes over four
  tiles of 512 rows. The first pass adds each tile's keyWᵀ · colExp product and each tile's column sums into the
  accumulators (`accV`: the accumulators after `k` tiles); between the passes the accumulated product is divided by the
  accumulated sums and multiplied with the projection matrix (`projV`), and the bias is spread over a tile (`biasV`); the
  second pass writes, tile by tile, the value tile times that matrix plus the bias (`kerBlock`).
-/
import proofs.«418091_j12678743458547_3_alg».proof.Proof.Gen.KernelIdeal.Skeleton
import Idealize.ShloMosaic.Lib.Pipeline.Value
import Idealize.ShloMosaic.PureOps.Ideal

noncomputable section

namespace Cert.KernelIdeal.Fn

open Cert.KernelIdeal Cert.KernelIdeal.Gen Idealize.ShloMosaic

/-- Both passes make four trips. -/
theorem trips1 : k0_t1_loop.trips = 4 := by decide
theorem trips2 : k0_t2_loop.trips = 4 := by decide

/-- Trip `k` of either pass addresses rows `512 k …` of its block. -/
theorem off1_eq : ∀ k : Fin k0_t1_loop.trips, k0_off1 k = ![0, 512 * k.val, 0] := by decide +kernel
theorem off2_eq : ∀ k : Fin k0_t2_loop.trips, k0_off2 k = ![0, 512 * k.val, 0] := by decide +kernel

/-- Rows `512 k … 512 k + 511` of a block, as the first pass loads them. -/
abbrev tile1 (X : Vec Ideal S1x2048x512 .f32) (k : Fin k0_t1_loop.trips) : Vec Ideal S1x512x512 .f32 :=
  View.ld X (Rect.unit (s := S1x2048x512) (k0_off1 k) S1x512x512.size (k0_off1_inb k))

/-- The same rows as the second pass loads them. -/
abbrev tile2 (X : Vec Ideal S1x2048x512 .f32) (k : Fin k0_t2_loop.trips) : Vec Ideal S1x512x512 .f32 :=
  View.ld X (Rect.unit (s := S1x2048x512) (k0_off2 k) S1x512x512.size (k0_off2_inb k))

/-- The column maxima of the score block. -/
def colmaxV (X1 : Vec Ideal S1x2048x512 .f32) : Vec Ideal S1x512 .f32 := k0_pay4 X1

/-- The two accumulators (the product, the column sums) after the first `k` tiles. -/
def accV (X1 : Vec Ideal S1x2048x512 .f32) : ℕ → Vec Ideal S512x512 .f32 × Vec Ideal S1x512 .f32
  | 0 => (k0_pay2 (F := Ideal), k0_pay3 (F := Ideal))
  | k + 1 =>
    if h : k < k0_t1_loop.trips then
      (k0_pay8 (tile1 X1 ⟨k, h⟩) (colmaxV X1) (accV X1 k).1, k0_pay7 (tile1 X1 ⟨k, h⟩) (colmaxV X1) (accV X1 k).2)
    else accV X1 k

theorem accV_succ (X1 : Vec Ideal S1x2048x512 .f32) (k : Fin k0_t1_loop.trips) :
    accV X1 (k.val + 1)
      = (k0_pay8 (tile1 X1 k) (colmaxV X1) (accV X1 k.val).1, k0_pay7 (tile1 X1 k) (colmaxV X1) (accV X1 k.val).2) := by
  rw [accV]; exact dif_pos k.isLt

/-- The normalised product folded with the projection matrix. -/
def projV (X1 : Vec Ideal S1x2048x512 .f32) (X2 : Vec Ideal S512x512 .f32) : FVec Ideal S512x512 .bf16 :=
  k0_pay9 (accV X1 k0_t1_loop.trips).1 (accV X1 k0_t1_loop.trips).2 X2

/-- The bias spread over the rows of a tile. -/
def biasV (X3 : Vec Ideal S512 .f32) : FVec Ideal S512x512 .f32 := k0_pay10 X3

/-- The tile a row of the block lies in, and the row's place inside it. -/
def tileOf (y : S1x2048x512.Idx) : Fin k0_t2_loop.trips := ⟨(y 1).val / 512, by
  have := (y 1).isLt; rw [trips2]; show (y 1).val / 512 < 4
  have h : (y 1).val < 2048 := this
  omega⟩
def inTile (y : S1x2048x512.Idx) : S1x512x512.Idx := fun a => match a with
  | ⟨0, _⟩ => ⟨0, Nat.one_pos⟩
  | ⟨1, _⟩ => ⟨(y 1).val % 512, Nat.mod_lt _ (by decide)⟩
  | ⟨2, _⟩ => ⟨(y 2).val, (y 2).isLt⟩

/-- The output block: at each row, its tile's value rows times `projV`, plus `biasV`. -/
def kerBlock (X0 X1 : Vec Ideal S1x2048x512 .f32) (X2 : Vec Ideal S512x512 .f32) (X3 : Vec Ideal S512 .f32) :
    Vec Ideal S1x2048x512 .f32 :=
  fun y => k0_pay1 (projV X1 X2) (biasV X3) (tile2 X0 (tileOf y)) (inTile y)

end Cert.KernelIdeal.Fn

end
-- ==== Proof.KerRun.lean ====
/-
  What one run of the kernel's body leaves in the output block is `kerBlock` of the four input blocks.

  The body's run is read here once. Each trip of the first pass stores, whole, the next value of the two
  accumulators as a function of the previous ones; so after `k` trips they hold `accV k` (induction over the trips).
  Each trip of the second pass stores one tile of 512 rows; the four tiles cover the block, and every tile's payload
  is the one function `kerBlock` read at the tile's rows.
-/
import proofs.«418091_j12678743458547_3_alg».proof.Proof.Gen.KernelIdeal.Frame
import proofs.«418091_j12678743458547_3_alg».proof.Proof.KerFn

set_option maxRecDepth 16384

noncomputable section

namespace Cert.KernelIdeal.KerRun

open Cert.KernelIdeal Cert.KernelIdeal.Gen Cert.KernelIdeal.Fn
open Idealize.ShloMosaic Idealize.ShloMosaic.TcCoe Idealize.SL.Sem

/-! ## Loads and whole stores -/

/-- A load of the whole of a memref whose contents read `X` reads `X`. -/
theorem readAt_whole {S : Shape} {e : EltTy} (v : View sig .tc .vmem S e) (f : v.ty.Contents (Elt Ideal))
    {off : Fin S.rank → Nat} (h : off = fun _ => 0) (inb : ∀ a, off a + S.size a ≤ S.size a) :
    v.readAt (Elt Ideal) (Rect.unit off S.size inb).toLoadRect f = v.read (Elt Ideal) f := by
  rw [View.readAt_eq_ld, View.ld_unit_zero h inb]

/-- After a whole store on top of anything, the contents read the stored value. -/
theorem read_writes_whole {S : Shape} {e : EltTy} (v : View sig .tc .vmem S e) (f : v.ty.Contents (Elt Ideal))
    {off : Fin S.rank → Nat} (h : off = fun _ => 0) (inb : ∀ a, off a + S.size a ≤ S.size a)
    (w : S.Idx → Elt Ideal e) (L : List (View.Piece (Elt Ideal) S e)) :
    v.read (Elt Ideal) (v.writes (Elt Ideal) f ((⟨Rect.unit off S.size inb, w⟩ : View.Piece (Elt Ideal) S e) :: L)) = w := by
  rw [View.read_writes_eq_canon v f _ (fun y => ⟨_, List.mem_cons_self, View.mem_set_unit_zero h inb y⟩),
    View.canon_cons_unit_zero h inb]

theorem z2 : (![0, 0] : Fin 2 → Nat) = fun _ => 0 := funext fun a => by fin_cases a <;> rfl
theorem z3 : (![0, 0, 0] : Fin 3 → Nat) = fun _ => 0 := funext fun a => by fin_cases a <;> rfl
theorem z1 : (![0] : Fin 1 → Nat) = fun _ => 0 := funext fun a => by fin_cases a; rfl

variable (c : Dev nD) (i : grid0.Coords) (arg1 : Memref sig .tc .vmem S1x2048x512 .f32) (harg1 : arg1.IsWhole) (arg2 : Memref sig .tc .vmem S1x2048x512 .f32) (harg2 : arg2.IsWhole) (arg3 : Memref sig .tc .vmem S512x512 .f32) (harg3 : arg3.IsWhole) (arg4 : Memref sig .tc .vmem S512 .f32) (harg4 : arg4.IsWhole) (arg5 : Memref sig .tc .vmem S1x2048x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole)

/-! ## One trip of each pass -/

/-- A trip of the first pass stores the next product accumulator, whole. -/
theorem trip1_fst (𝒱 : Variants) (bd : Option 𝒱.V) (X_arg2 : BufTy.Contents (Elt Ideal) arg2.view.ty)
    (X_arg8 : BufTy.Contents (Elt Ideal) arg8.view.ty) (k : Fin k0_t1_loop.trips)
    (f6 : BufTy.Contents (Elt Ideal) arg6.view.ty) (f7 : BufTy.Contents (Elt Ideal) arg7.view.ty) :
    (trip_k0_t1 (F := Ideal) 𝒱 c bd i arg1 harg1 arg2 harg2 arg3 harg3 arg4 harg4 arg5 harg5 arg6 harg6 arg7 harg7 arg8 harg8 X_arg2 X_arg8 k).1 f6 f7
      = [⟨Rect.unit ![0, 0] S512x512.size inb_S512x512_S512x512_0_0,
          k0_pay8 (View.readAt (Elt Ideal) arg2.view (Rect.unit (s := S1x2048x512) (k0_off1 k) S1x512x512.size (k0_off1_inb k)).toLoadRect X_arg2)
            (View.readAt (Elt Ideal) arg8.view (Rect.unit ![0, 0] S1x512.size inb_S1x512_S1x512_0_0).toLoadRect X_arg8)
            (View.readAt (Elt Ideal) arg6.view (Rect.unit ![0, 0] S512x512.size inb_S512x512_S512x512_0_0).toLoadRect f6)⟩] := by
  unfold trip_k0_t1; rfl

/-- … and the next sums accumulator, whole. -/
theorem trip1_snd (𝒱 : Variants) (bd : Option 𝒱.V) (X_arg2 : BufTy.Contents (Elt Ideal) arg2.view.ty)
    (X_arg8 : BufTy.Contents (Elt Ideal) arg8.view.ty) (k : Fin k0_t1_loop.trips)
    (f6 : BufTy.Contents (Elt Ideal) arg6.view.ty) (f7 : BufTy.Contents (Elt Ideal) arg7.view.ty) :
    (trip_k0_t1 (F := Ideal) 𝒱 c bd i arg1 harg1 arg2 harg2 arg3 harg3 arg4 harg4 arg5 harg5 arg6 harg6 arg7 harg7 arg8 harg8 X_arg2 X_arg8 k).2.1 f6 f7
      = [⟨Rect.unit ![0, 0] S1x512.size inb_S1x512_S1x512_0_0,
          k0_pay7 (View.readAt (Elt Ideal) arg2.view (Rect.unit (s := S1x2048x512) (k0_off1 k) S1x512x512.size (k0_off1_inb k)).toLoadRect X_arg2)
            (View.readAt (Elt Ideal) arg8.view (Rect.unit ![0, 0] S1x512.size inb_S1x512_S1x512_0_0).toLoadRect X_arg8)
            (View.readAt (Elt Ideal) arg7.view (Rect.unit ![0, 0] S1x512.size inb_S1x512_S1x512_0_0).toLoadRect f7)⟩] := by
  unfold trip_k0_t1; rfl

/-- A trip of the second pass stores one tile of the output. -/
theorem trip2_piece (𝒱 : Variants) (bd : Option 𝒱.V) (v24 : FVec Ideal S512x512 .bf16) (v27 : FVec Ideal S512x512 .f32)
    (X_arg1 : BufTy.Contents (Elt Ideal) arg1.view.ty) (k : Fin k0_t2_loop.trips) :
    (trip_k0_t2 (F := Ideal) 𝒱 c bd i arg1 harg1 arg2 harg2 arg3 harg3 arg4 harg4 arg5 harg5 arg6 harg6 arg7 harg7 arg8 harg8 v24 v27 X_arg1 k).1
      = [⟨Rect.unit (s := S1x2048x512) (k0_off2 k) S1x512x512.size (k0_off2_inb k),
          k0_pay1 v24 v27 (View.readAt (Elt Ideal) arg1.view (Rect.unit (s := S1x2048x512) (k0_off2 k) S1x512x512.size (k0_off2_inb k)).toLoadRect X_arg1)⟩] := by
  unfold trip_k0_t2; rfl

/-! ## The first pass -/

/-- A load of the rows of trip `k` from a memref holding the score block reads that tile. -/
theorem readAt_tile1 (X1 : Vec Ideal S1x2048x512 .f32) (k : Fin k0_t1_loop.trips) :
    View.readAt (Elt Ideal) arg2.view (Rect.unit (s := S1x2048x512) (k0_off1 k) S1x512x512.size (k0_off1_inb k)).toLoadRect (harg2.unread X1)
      = tile1 X1 k := by
  rw [View.readAt_eq_ld, harg2.read_unread]

/-- After `k` trips of the first pass, started from the zeroed accumulators with the column maxima stored, the two
    accumulators hold `accV k`. -/
theorem loop1 (X1 : Vec Ideal S1x2048x512 .f32) (X8 : BufTy.Contents (Elt Ideal) arg8.view.ty)
    (G6 : BufTy.Contents (Elt Ideal) arg6.view.ty) (G7 : BufTy.Contents (Elt Ideal) arg7.view.ty)
    (hX8 : arg8.view.read (Elt Ideal) X8 = colmaxV X1)
    (hG6 : arg6.view.read (Elt Ideal) G6 = k0_pay2 (F := Ideal)) (hG7 : arg7.view.read (Elt Ideal) G7 = k0_pay3 (F := Ideal)) :
    ∀ k, k ≤ k0_t1_loop.trips →
      arg6.view.read (Elt Ideal) (arg6.view.writes (Elt Ideal) G6 (pb_k0_t1 (F := Ideal) Variants.none c none i arg1 harg1 arg2 harg2 arg3 harg3 arg4 harg4 arg5 harg5 arg6 harg6 arg7 harg7 arg8 harg8 (harg2.unread X1) X8 G6 G7 k).1) = (accV X1 k).1
      ∧ arg7.view.read (Elt Ideal) (arg7.view.writes (Elt Ideal) G7 (pb_k0_t1 (F := Ideal) Variants.none c none i arg1 harg1 arg2 harg2 arg3 harg3 arg4 harg4 arg5 harg5 arg6 harg6 arg7 harg7 arg8 harg8 (harg2.unread X1) X8 G6 G7 k).2) = (accV X1 k).2
  | 0, _ => by
    rw [pb_k0_t1]
    exact ⟨hG6, hG7⟩
  | k + 1, hk => by
    have hk' : k < k0_t1_loop.trips := hk
    obtain ⟨ih6, ih7⟩ := loop1 X1 X8 G6 G7 hX8 hG6 hG7 k (Nat.le_of_lt hk')
    rw [show (pb_k0_t1 (F := Ideal) Variants.none c none i arg1 harg1 arg2 harg2 arg3 harg3 arg4 harg4 arg5 harg5 arg6 harg6 arg7 harg7 arg8 harg8 (harg2.unread X1) X8 G6 G7 (k + 1)) = _ from pb_k0_t1_succ (F := Ideal) Variants.none c none i arg1 harg1 arg2 harg2 arg3 harg3 arg4 harg4 arg5 harg5 arg6 harg6 arg7 harg7 arg8 harg8 (harg2.unread X1) X8 G6 G7 ⟨k, hk'⟩]
    dsimp only
    rw [trip1_fst, trip1_snd, List.singleton_append, List.singleton_append,
      read_writes_whole _ _ z2, read_writes_whole _ _ z2, accV_succ X1 ⟨k, hk'⟩,
      readAt_tile1, readAt_whole _ _ z2, readAt_whole _ _ z2, readAt_whole _ _ z2, ih6, ih7, hX8]
    exact ⟨rfl, rfl⟩

/-! ## Between the passes -/

/-- The product accumulator as read back after the first pass. -/
theorem acc6_after (X1 : Vec Ideal S1x2048x512 .f32) :
    kernelRun0_A.sl.v16 (F := Ideal) c i arg1 harg1 arg2 harg2 arg3 harg3 arg4 harg4 arg5 harg5 arg6 harg6 arg7 harg7 arg8 harg8 X1 = (accV X1 k0_t1_loop.trips).1 := by
  unfold kernelRun0_A.sl.v16
  rw [readAt_whole _ _ z2, View.writes_append]
  refine (loop1 c i arg1 harg1 arg2 harg2 arg3 harg3 arg4 harg4 arg5 harg5 arg6 harg6 arg7 harg7 arg8 harg8 X1 _ _ _ ?_ ?_ ?_ k0_t1_loop.trips le_rfl).1
  · unfold kernelRun0_A.sl.HS2_1 colmaxV
    rw [read_writes_whole _ _ z2, readAt_whole _ _ z3, harg2.read_unread]
  · unfold kernelRun0_A.sl.HS0_1
    rw [read_writes_whole _ _ z2]
  · unfold kernelRun0_A.sl.HS1_1
    rw [read_writes_whole _ _ z2]

/-- The sums accumulator as read back after the first pass. -/
theorem acc7_after (X1 : Vec Ideal S1x2048x512 .f32) :
    kernelRun0_A.sl.v17 (F := Ideal) c i arg1 harg1 arg2 harg2 arg3 harg3 arg4 harg4 arg5 harg5 arg6 harg6 arg7 harg7 arg8 harg8 X1 = (accV X1 k0_t1_loop.trips).2 := by
  unfold kernelRun0_A.sl.v17
  rw [readAt_whole _ _ z2, View.writes_append]
  refine (loop1 c i arg1 harg1 arg2 harg2 arg3 harg3 arg4 harg4 arg5 harg5 arg6 harg6 arg7 harg7 arg8 harg8 X1 _ _ _ ?_ ?_ ?_ k0_t1_loop.trips le_rfl).2
  · unfold kernelRun0_A.sl.HS2_1 colmaxV
    rw [read_writes_whole _ _ z2, readAt_whole _ _ z3, harg2.read_unread]
  · unfold kernelRun0_A.sl.HS0_1
    rw [read_writes_whole _ _ z2]
  · unfold kernelRun0_A.sl.HS1_1
    rw [read_writes_whole _ _ z2]

/-- The matrix the second pass multiplies by is `projV`, -/
theorem proj_after (X1 : Vec Ideal S1x2048x512 .f32) (X2 : Vec Ideal S512x512 .f32) :
    kernelRun0_A.sl.r (F := Ideal) c i arg1 harg1 arg2 harg2 arg3 harg3 arg4 harg4 arg5 harg5 arg6 harg6 arg7 harg7 arg8 harg8 X1 X2 = projV X1 X2 := by
  unfold kernelRun0_A.sl.r projV
  rw [acc6_after, acc7_after, readAt_whole _ _ z2, harg3.read_unread]

/-- and the tile it adds is `biasV`. -/
theorem bias_after (X3 : Vec Ideal S512 .f32) :
    kernelRun0_A.sl.r_1 (F := Ideal) c arg4 harg4 X3 = biasV X3 := by
  unfold kernelRun0_A.sl.r_1 biasV
  rw [readAt_whole _ _ z1, harg4.read_unread]

/-! ## The second pass -/

/-- A load of the rows of trip `k` from a memref holding the value block reads that tile. -/
theorem readAt_tile2 (X0 : Vec Ideal S1x2048x512 .f32) (k : Fin k0_t2_loop.trips) :
    View.readAt (Elt Ideal) arg1.view (Rect.unit (s := S1x2048x512) (k0_off2 k) S1x512x512.size (k0_off2_inb k)).toLoadRect (harg1.unread X0)
      = tile2 X0 k := by
  rw [View.readAt_eq_ld, harg1.read_unread]

omit c i arg1 harg1 arg2 harg2 arg3 harg3 arg4 harg4 arg5 harg5 arg6 harg6 arg7 harg7 arg8 harg8 in
/-- Row `x` of tile `k` lies in tile `k`, -/
theorem tileOf_emb (k : Fin k0_t2_loop.trips) (x : S1x512x512.Idx) :
    tileOf ((Rect.unit (s := S1x2048x512) (k0_off2 k) S1x512x512.size (k0_off2_inb k)).emb x) = k := by
  apply Fin.ext
  show ((Rect.unit (s := S1x2048x512) (k0_off2 k) S1x512x512.size (k0_off2_inb k)).emb x 1).val / 512 = k.val
  rw [Rect.emb_apply]
  show ((k0_off2 k) 1 + 1 * (x 1).val) / 512 = k.val
  rw [off2_eq k]
  have hx : (x 1).val < 512 := (x 1).isLt
  show (512 * k.val + 1 * (x 1).val) / 512 = k.val
  omega

omit c i arg1 harg1 arg2 harg2 arg3 harg3 arg4 harg4 arg5 harg5 arg6 harg6 arg7 harg7 arg8 harg8 in
/-- at place `x` inside it. -/
theorem inTile_emb (k : Fin k0_t2_loop.trips) (x : S1x512x512.Idx) :
    inTile ((Rect.unit (s := S1x2048x512) (k0_off2 k) S1x512x512.size (k0_off2_inb k)).emb x) = x := by
  funext a
  apply Fin.ext
  match a with
  | ⟨0, _⟩ =>
    have hx : (x 0).val < 1 := (x 0).isLt
    show 0 = (x 0).val
    omega
  | ⟨1, _⟩ =>
    show ((Rect.unit (s := S1x2048x512) (k0_off2 k) S1x512x512.size (k0_off2_inb k)).emb x 1).val % 512 = (x 1).val
    rw [Rect.emb_apply]
    show ((k0_off2 k) 1 + 1 * (x 1).val) % 512 = (x 1).val
    rw [off2_eq k]
    have hx : (x 1).val < 512 := (x 1).isLt
    show (512 * k.val + 1 * (x 1).val) % 512 = (x 1).val
    omega
  | ⟨2, _⟩ =>
    show ((Rect.unit (s := S1x2048x512) (k0_off2 k) S1x512x512.size (k0_off2_inb k)).emb x 2).val = (x 2).val
    rw [Rect.emb_apply]
    show (k0_off2 k) 2 + 1 * (x 2).val = (x 2).val
    rw [off2_eq k]
    show 0 + 1 * (x 2).val = (x 2).val
    omega

/-- Every tile stored by the first `k` trips of the second pass is `kerBlock` read at the tile's rows. -/
theorem pieces2 (X0 X1 : Vec Ideal S1x2048x512 .f32) (X2 : Vec Ideal S512x512 .f32) (X3 : Vec Ideal S512 .f32) :
    ∀ k, k ≤ k0_t2_loop.trips → ∀ p ∈ (pb_k0_t2 (F := Ideal) Variants.none c none i arg1 harg1 arg2 harg2 arg3 harg3 arg4 harg4 arg5 harg5 arg6 harg6 arg7 harg7 arg8 harg8 (projV X1 X2) (biasV X3) (harg1.unread X0) k), ∀ x : p.1.shape.Idx, p.2 x = kerBlock X0 X1 X2 X3 (p.1.emb x)
  | 0, _ => by
    rw [pb_k0_t2]
    intro p hp
    exact absurd hp List.not_mem_nil
  | k + 1, hk => by
    have hk' : k < k0_t2_loop.trips := hk
    rw [show (pb_k0_t2 (F := Ideal) Variants.none c none i arg1 harg1 arg2 harg2 arg3 harg3 arg4 harg4 arg5 harg5 arg6 harg6 arg7 harg7 arg8 harg8 (projV X1 X2) (biasV X3) (harg1.unread X0) (k + 1)) = _ from pb_k0_t2_succ (F := Ideal) Variants.none c none i arg1 harg1 arg2 harg2 arg3 harg3 arg4 harg4 arg5 harg5 arg6 harg6 arg7 harg7 arg8 harg8 (projV X1 X2) (biasV X3) (harg1.unread X0) ⟨k, hk'⟩]
    unfold tripL_k0_t2
    rw [trip2_piece, List.singleton_append, readAt_tile2]
    intro p hp x
    rcases List.mem_cons.mp hp with rfl | hp'
    · show k0_pay1 (projV X1 X2) (biasV X3) (tile2 X0 ⟨k, hk'⟩) x = kerBlock X0 X1 X2 X3 _
      unfold kerBlock
      rw [tileOf_emb, inTile_emb]
    · exact pieces2 X0 X1 X2 X3 k (Nat.le_of_lt hk') p hp' x

/-- The tiles the run stores are those of the four trips, over `projV` and `biasV`. -/
theorem run_pieces (X0 X1 : Vec Ideal S1x2048x512 .f32) (X2 : Vec Ideal S512x512 .f32) (X3 : Vec Ideal S512 .f32) :
    (kernelRun0_A (F := Ideal) c i arg1 harg1 arg2 harg2 arg3 harg3 arg4 harg4 arg5 harg5 arg6 harg6 arg7 harg7 arg8 harg8 X0 X1 X2 X3).1 = (pb_k0_t2 (F := Ideal) Variants.none c none i arg1 harg1 arg2 harg2 arg3 harg3 arg4 harg4 arg5 harg5 arg6 harg6 arg7 harg7 arg8 harg8 (projV X1 X2) (biasV X3) (harg1.unread X0) k0_t2_loop.trips) := by
  unfold kernelRun0_A
  dsimp only
  rw [proj_after, bias_after]

/-- What the run leaves in the output block is `kerBlock` of the input blocks: the four tiles cover the block. -/
theorem out0_eq (X0 X1 : Vec Ideal S1x2048x512 .f32) (X2 : Vec Ideal S512x512 .f32) (X3 : Vec Ideal S512 .f32) :
    out0_A_4 (F := Ideal) c i arg1 harg1 arg2 harg2 arg3 harg3 arg4 harg4 arg5 harg5 arg6 harg6 arg7 harg7 arg8 harg8 X0 X1 X2 X3 = kerBlock X0 X1 X2 X3 := by
  unfold out0_A_4
  rw [View.read_writes_junk_eq_canon]
  funext y
  refine View.canon_apply_of_pieces (kerBlock X0 X1 X2 X3) _ ?_ y (cover0_A_4 c i arg1 harg1 arg2 harg2 arg3 harg3 arg4 harg4 arg5 harg5 arg6 harg6 arg7 harg7 arg8 harg8 X0 X1 X2 X3 y)
  rw [run_pieces]
  exact pieces2 c i arg1 harg1 arg2 harg2 arg3 harg3 arg4 harg4 arg5 harg5 arg6 harg6 arg7 harg7 arg8 harg8 X0 X1 X2 X3 k0_t2_loop.trips le_rfl

end Cert.KernelIdeal.KerRun

end
-- ==== Proof.Spec.lean ====
/-
  Linear cross-attention for ONE batch, as formulas over the extended reals.

  Write `a n d` for the scores (rows `n < 2048`, features `d < 512`), `x n d` for the values, `W e d` for the
  projection and `bv e` for its bias. Two softmaxes of the same scores are taken: over the features of a row
  (`keyW`) and over the rows of a feature (the quotient `colExp / colDen`), each shifted by the maximum of the axis it
  normalises. The reference contracts in the order  ((x · keyWᵀ) · query) · Wᵀ + bv  (`refOut`); the kernel first sums
  keyWᵀ · colExp over four tiles of 512 rows, divides by the column sums accumulated over the same tiles, folds `W` in,
  and only then multiplies by `x` (`kerOut`). Over real numbers the two agree by distributivity, the interchange of finite
  sums and the split of the 2048 rows into 4 × 512 (`kerOut_eq_refOut`); every intermediate value is a real number
  because the shifted exponentials lie in (0, 1] and the denominators are sums of them.
-/
import Idealize.ShloMosaic.PureOps.Ideal

noncomputable section

namespace Cert.LinAttn

open Idealize.ShloMosaic

/-- The largest score of row `n` (from `-∞`). -/
def rowMax (a : Fin 2048 → Fin 512 → EReal) (n : Fin 2048) : EReal :=
  (Finset.univ : Finset (Fin 512)).fold max ⊥ (fun d => a n d)

/-- The largest score of feature `d` over all rows (from `-∞`). -/
def colMax (a : Fin 2048 → Fin 512 → EReal) (d : Fin 512) : EReal :=
  (Finset.univ : Finset (Fin 2048)).fold max ⊥ (fun n => a n d)

/-- `exp (a n d - max of row n)`. -/
def rowExp (a : Fin 2048 → Fin 512 → EReal) (n : Fin 2048) (d : Fin 512) : EReal :=
  Ideal.exp (a n d - rowMax a n)

/-- The softmax over the features of row `n`, at feature `d`. -/
def keyW (a : Fin 2048 → Fin 512 → EReal) (n : Fin 2048) (d : Fin 512) : EReal :=
  Ideal.div (rowExp a n d) (∑ d' : Fin 512, rowExp a n d')

/-- `exp (a n d - max of feature d)`. -/
def colExp (a : Fin 2048 → Fin 512 → EReal) (n : Fin 2048) (d : Fin 512) : EReal :=
  Ideal.exp (a n d - colMax a d)

/-- The denominator of the softmax over the rows, at feature `d`. -/
def colDen (a : Fin 2048 → Fin 512 → EReal) (d : Fin 512) : EReal :=
  ∑ n : Fin 2048, colExp a n d

/-- The reference's result at row `n`, output feature `e`:
    `∑ d₂ (∑ m (∑ d₁ x n d₁ · keyW m d₁) · colExp m d₂ / colDen d₂) · W e d₂ + bv e`. -/
def refOut (a x : Fin 2048 → Fin 512 → EReal) (W : Fin 512 → Fin 512 → EReal) (bv : Fin 512 → EReal)
    (n : Fin 2048) (e : Fin 512) : EReal :=
  (∑ d2 : Fin 512, (∑ m : Fin 2048, (∑ d1 : Fin 512, x n d1 * keyW a m d1) * Ideal.div (colExp a m d2) (colDen a d2)) * W e d2)
    + bv e

/-- Row `r` of tile `k`: row `512 k + r` of the whole. -/
def tileRow (k : Fin 4) (r : Fin 512) : Fin 2048 := ⟨512 * k.val + r.val, by omega⟩

/-- Tile `k`'s contribution to keyWᵀ · colExp, at (d₁, d₂). -/
def tileKtq (a : Fin 2048 → Fin 512 → EReal) (k : Fin 4) (d1 d2 : Fin 512) : EReal :=
  ∑ r : Fin 512, keyW a (tileRow k r) d1 * colExp a (tileRow k r) d2

/-- Tile `k`'s contribution to the column sums of `colExp`, at `d₂`. -/
def tileDen (a : Fin 2048 → Fin 512 → EReal) (k : Fin 4) (d2 : Fin 512) : EReal :=
  ∑ r : Fin 512, colExp a (tileRow k r) d2

/-- keyWᵀ · colExp accumulated from zero over the four tiles, in the kernel's order. -/
def ktq (a : Fin 2048 → Fin 512 → EReal) (d1 d2 : Fin 512) : EReal :=
  (((0 + tileKtq a 0 d1 d2) + tileKtq a 1 d1 d2) + tileKtq a 2 d1 d2) + tileKtq a 3 d1 d2

/-- The column sums accumulated from zero over the four tiles, in the kernel's order. -/
def dq (a : Fin 2048 → Fin 512 → EReal) (d2 : Fin 512) : EReal :=
  (((0 + tileDen a 0 d2) + tileDen a 1 d2) + tileDen a 2 d2) + tileDen a 3 d2

/-- The kernel's folded projection: `∑ d₂ (ktq d₁ d₂ / dq d₂) · W e d₂`. -/
def projW (a : Fin 2048 → Fin 512 → EReal) (W : Fin 512 → Fin 512 → EReal) (d1 e : Fin 512) : EReal :=
  ∑ d2 : Fin 512, Ideal.div (ktq a d1 d2) (dq a d2) * W e d2

/-- The kernel's result at row `n`, output feature `e`: `∑ d₁ x n d₁ · projW d₁ e + bv e`. -/
def kerOut (a x : Fin 2048 → Fin 512 → EReal) (W : Fin 512 → Fin 512 → EReal) (bv : Fin 512 → EReal)
    (n : Fin 2048) (e : Fin 512) : EReal :=
  (∑ d1 : Fin 512, x n d1 * projW a W d1 e) + bv e

end Cert.LinAttn

end
-- ==== Proof.Coords.lean ====
/-
  The arrays of the two programs seen as coordinate functions: batch `b` of a [8, 2048, 512] array (or the one
  batch of a [1, 2048, 512] block) as rows × features, the projection matrix as output feature × input feature,
  the bias by output feature; and the whole result array `G` the two programs are compared through: at (b, n, e),
  the kernel's formula `kerOut` of batch `b`'s scores and values.
-/
import proofs.«418091_j12678743458547_3_alg».proof.Proof.Spec
import Idealize.ShloMosaic.Lib.ValueIdx

noncomputable section

namespace Cert.LinAttn

open Idealize.ShloMosaic Idealize.ShloMosaic.ValueIdx

/-- Batch `b` of a [8, 2048, 512] array. -/
def rowsOf (Y : FVec Ideal ⟨3, ![8, 2048, 512]⟩ .f32) (b : Fin 8) : Fin 2048 → Fin 512 → EReal :=
  fun n d => Y (ix3 b n d)

/-- The one batch of a [1, 2048, 512] block. -/
def rowsOf1 (X : FVec Ideal ⟨3, ![1, 2048, 512]⟩ .f32) : Fin 2048 → Fin 512 → EReal :=
  fun n d => X (ix3 (0 : Fin 1) n d)

/-- A [512, 512] matrix by (row, column). -/
def matOf (Y : FVec Ideal ⟨2, ![512, 512]⟩ .f32) : Fin 512 → Fin 512 → EReal :=
  fun e d => Y (ix2 e d)

/-- A [512] vector by entry. -/
def vecOf (Y : FVec Ideal ⟨1, ![512]⟩ .f32) : Fin 512 → EReal :=
  fun e => Y (ix1 e)

/-- The result array both programs end with: at (b, n, e) the kernel's formula of batch `b`. -/
def G (Y0 Y1 : FVec Ideal ⟨3, ![8, 2048, 512]⟩ .f32) (Y2 : FVec Ideal ⟨2, ![512, 512]⟩ .f32)
    (Y3 : FVec Ideal ⟨1, ![512]⟩ .f32) : FVec Ideal ⟨3, ![8, 2048, 512]⟩ .f32 :=
  fun i => kerOut (rowsOf Y1 ⟨(i 0).val, (i 0).isLt⟩) (rowsOf Y0 ⟨(i 0).val, (i 0).isLt⟩) (matOf Y2) (vecOf Y3)
    ⟨(i 1).val, (i 1).isLt⟩ ⟨(i 2).val, (i 2).isLt⟩

end Cert.LinAttn

end
-- ==== Proof.PayTile.lean ====
/-
  The first pass's payloads read at an index: the column maxima, and what one tile adds to each accumulator.
-/
import proofs.«418091_j12678743458547_3_alg».proof.Proof.KerFn
import proofs.«418091_j12678743458547_3_alg».proof.Proof.Coords
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayTile

open Cert.KernelIdeal Cert.KernelIdeal.Gen Cert.KernelIdeal.Fn Cert.LinAttn
open Idealize.ShloMosaic Idealize.ShloMosaic.ValueIdx

/-- A trip of the first pass as a tile number. -/
def tileNo (k : Fin k0_t1_loop.trips) : Fin 4 := ⟨k.val, trips1 ▸ k.isLt⟩

theorem lift0_ix2 {m n : Nat} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  match c with
  | ⟨0, _⟩ => rfl
  | ⟨1, _⟩ => rfl

theorem lift1_ix2 {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  match c with
  | ⟨0, _⟩ => rfl
  | ⟨1, _⟩ => rfl

theorem negInf_f32 : FloatOps.ofBits (F := Ideal) .f32 0xFF800000#32 = (⊥ : EReal) := by
  simp [Ideal.ofBits, Ideal.ieee]

/-- The stored column maxima are the maxima of the scores' columns. -/
theorem colmaxV_apply (X1 : Vec Ideal S1x2048x512 .f32) (d : Fin 512) :
    colmaxV X1 (ix2 (0 : Fin 1) d) = colMax (rowsOf1 X1) d := by
  unfold colmaxV k0_pay4
  rw [shapeCast_self]
  refine (shapeCast_a_1a_apply _ _ 0 d).trans ?_
  refine (Ideal.multiReduction_maximumf_single _ _ reduces_S2048x512_S512 _ _ (ix1 d)).trans ?_
  rw [negInf_f32]
  unfold colMax
  refine congrArg (fun f => Finset.fold max (⊥ : EReal) f (Finset.univ : Finset (Fin 2048))) ?_
  funext n
  show shapeCast S2048x512 X1 shapeCasts_S1x2048x512_S2048x512 (reduces_S2048x512_S512.lift (ix1 d) n) = _
  rw [lift0_ix2]
  exact shapeCast_1ab_ab_apply X1 _ _ d

section Layout
variable {α : Type}

/-- An `[a]` array cast to one column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- Row `r` of the tile a trip loads is row `512 k + r` of the block. -/
theorem tile1_apply (X1 : Vec Ideal S1x2048x512 .f32) (k : Fin k0_t1_loop.trips) (r d : Fin 512) :
    tile1 X1 k (ix3 (0 : Fin 1) r d) = rowsOf1 X1 (tileRow (tileNo k) r) d := by
  show X1 _ = X1 _
  refine congrArg X1 (funext fun a => Fin.ext ?_)
  match a with
  | ⟨0, _⟩ =>
    show k0_off1 k 0 + 1 * 0 = 0
    rw [off1_eq]; rfl
  | ⟨1, _⟩ =>
    show k0_off1 k 1 + 1 * r.val = 512 * k.val + r.val
    rw [off1_eq]; simp
  | ⟨2, _⟩ =>
    show k0_off1 k 2 + 1 * d.val = d.val
    rw [off1_eq]; simp

theorem pay5_apply (X : Vec Ideal S1x512x512 .f32) (r d : Fin 512) :
    k0_pay5 X (ix2 r d) = X (ix3 (0 : Fin 1) r d) := by
  unfold k0_pay5
  exact shapeCast_1ab_ab_apply X _ r d

theorem pay6_apply (X : Vec Ideal S1x512x512 .f32) (C : Vec Ideal S1x512 .f32) (r d : Fin 512) :
    k0_pay6 X C (ix2 r d) = Ideal.exp (X (ix3 (0 : Fin 1) r d) - C (ix2 (0 : Fin 1) d)) := by
  unfold k0_pay6
  show Ideal.exp (k0_pay5 X (ix2 r d) - broadcastTo S512x512 C broadcasts_S1x512_S512x512 (ix2 r d)) = _
  rw [pay5_apply, broadcastTo_1b_ab_apply]

/-- The first-pass product contracts axis 0 of both operands: the left operand is read at (contraction, row of the result). -/
theorem lhs_dot_0 (i : S512x512.Idx) (q : dot_S512x512_S512x512_S512x512_0_0_1_1_n_n.contr.Idx) :
    (dot_S512x512_S512x512_S512x512_0_0_1_1_n_n.lhsIdx i q 0).val = (q ⟨0, by decide⟩).val :=
  dot_S512x512_S512x512_S512x512_0_0_1_1_n_n.lhsIdx_val_of_single rfl i q
theorem lhs_dot_1 (i : S512x512.Idx) (q : dot_S512x512_S512x512_S512x512_0_0_1_1_n_n.contr.Idx) :
    (dot_S512x512_S512x512_S512x512_0_0_1_1_n_n.lhsIdx i q 1).val = (i 0).val := by
  unfold DotDims.lhsIdx
  rw [dif_neg (show ¬(1 : Fin S512x512.rank) ∈ dot_S512x512_S512x512_S512x512_0_0_1_1_n_n.lhsBatch by decide), dif_pos (show (1 : Fin S512x512.rank) ∈ dot_S512x512_S512x512_S512x512_0_0_1_1_n_n.lhsNonContracting by decide)]
  rfl
/-- The right operand is read at (contraction, column of the result). -/
theorem rhs_dot_0 (i : S512x512.Idx) (q : dot_S512x512_S512x512_S512x512_0_0_1_1_n_n.contr.Idx) :
    (dot_S512x512_S512x512_S512x512_0_0_1_1_n_n.rhsIdx i q 0).val = (q ⟨0, by decide⟩).val :=
  dot_S512x512_S512x512_S512x512_0_0_1_1_n_n.rhsIdx_val_of_single rfl i q
theorem rhs_dot_1 (i : S512x512.Idx) (q : dot_S512x512_S512x512_S512x512_0_0_1_1_n_n.contr.Idx) :
    (dot_S512x512_S512x512_S512x512_0_0_1_1_n_n.rhsIdx i q 1).val = (i 1).val := by
  unfold DotDims.rhsIdx
  rw [dif_neg (show ¬(1 : Fin S512x512.rank) ∈ dot_S512x512_S512x512_S512x512_0_0_1_1_n_n.rhsBatch by decide), dif_pos (show (1 : Fin S512x512.rank) ∈ dot_S512x512_S512x512_S512x512_0_0_1_1_n_n.rhsNonContracting by decide)]
  rfl

/-- The product into the zero accumulator, at (d₁, d₂): the sum over the rows r of L (r, d₁) · R (r, d₂). -/
theorem dot_apply (L R : FVec Ideal S512x512 .bf16) (d1 d2 : Fin 512) :
    matmul dot_S512x512_S512x512_S512x512_0_0_1_1_n_n none L R (constant (F := Ideal) S512x512 .f32 0x00000000#32) (ix2 d1 d2)
      = ∑ r : Fin 512, L (ix2 r d1) * R (ix2 r d2) := by
  simp only [matmul]
  rw [Ideal.matmul_constant_zero_apply, ← Equiv.sum_comp (ValueIdx.contrEquiv1 dot_S512x512_S512x512_S512x512_0_0_1_1_n_n 512 rfl rfl).symm]
  refine Finset.sum_congr rfl fun r _ => ?_
  have hk := ValueIdx.contrEquiv1_symm_val dot_S512x512_S512x512_S512x512_0_0_1_1_n_n 512 rfl rfl r
  have el : dot_S512x512_S512x512_S512x512_0_0_1_1_n_n.lhsIdx (ix2 d1 d2) ((ValueIdx.contrEquiv1 dot_S512x512_S512x512_S512x512_0_0_1_1_n_n 512 rfl rfl).symm r) = ix2 r d1 := funext fun a => Fin.ext (by
    match a with
    | ⟨0, _⟩ => exact (lhs_dot_0 _ _).trans hk
    | ⟨1, _⟩ => exact lhs_dot_1 _ _)
  have er : dot_S512x512_S512x512_S512x512_0_0_1_1_n_n.rhsIdx (ix2 d1 d2) ((ValueIdx.contrEquiv1 dot_S512x512_S512x512_S512x512_0_0_1_1_n_n 512 rfl rfl).symm r) = ix2 r d2 := funext fun a => Fin.ext (by
    match a with
    | ⟨0, _⟩ => exact (rhs_dot_0 _ _).trans hk
    | ⟨1, _⟩ => exact rhs_dot_1 _ _)
  rw [el, er]

/-- The largest entry of row `r` of a tile (from `-∞`). -/
def rmax (X : Vec Ideal S1x512x512 .f32) (r : Fin 512) : EReal :=
  (Finset.univ : Finset (Fin 512)).fold max ⊥ (fun d => X (ix3 (0 : Fin 1) r d))

/-- `exp` of a tile's entry less its row's maximum. -/
def rexp (X : Vec Ideal S1x512x512 .f32) (r d : Fin 512) : EReal :=
  Ideal.exp (X (ix3 (0 : Fin 1) r d) - rmax X r)

/-- The row maxima of a tile, as the kernel reduces them. -/
theorem rowMaxV_apply (X : Vec Ideal S1x512x512 .f32) (r : Fin 512) :
    multiReduction (F := Ideal) .maximumf [1] S512 (k0_pay5 X) 0xFF800000#32 reduces_S512x512_S512 (.inl rfl) rfl (ix1 r)
      = rmax X r := by
  refine (Ideal.multiReduction_maximumf_single _ _ reduces_S512x512_S512 _ _ (ix1 r)).trans ?_
  rw [negInf_f32]
  unfold rmax
  refine congrArg (fun f => Finset.fold max (⊥ : EReal) f (Finset.univ : Finset (Fin 512))) ?_
  funext d
  show k0_pay5 X (reduces_S512x512_S512.lift (ix1 r) d) = _
  rw [lift1_ix2]
  exact pay5_apply X r d

/-- A vector of 512 entries kept as one column and spread over 512 columns reads, at `(r, d)`, entry `r`. -/
theorem keepdims_apply (v : FVec Ideal S512 .f32) (r d : Fin 512) :
    broadcastTo S512x512 (shapeCast S512x1 v shapeCasts_S512_S512x1) broadcasts_S512x1_S512x512 (ix2 r d) = v (ix1 r) :=
  (broadcastTo_a1_ab_apply _ _ r d).trans (shapeCast_a_a1_apply v _ r 0)

/-- The tile's shifted exponentials, as the kernel computes them. -/
def rexpV (X : Vec Ideal S1x512x512 .f32) : FVec Ideal S512x512 .f32 :=
  exp (subf (k0_pay5 X) (broadcastTo S512x512 (shapeCast S512x1
    (multiReduction (F := Ideal) .maximumf [1] S512 (k0_pay5 X) 0xFF800000#32 reduces_S512x512_S512 (.inl rfl) rfl)
    shapeCasts_S512_S512x1) broadcasts_S512x1_S512x512))

theorem rexpV_apply (X : Vec Ideal S1x512x512 .f32) (r d : Fin 512) : rexpV X (ix2 r d) = rexp X r d := by
  unfold rexpV rexp
  show Ideal.exp (k0_pay5 X (ix2 r d) - broadcastTo S512x512 _ broadcasts_S512x1_S512x512 (ix2 r d)) = _
  rw [pay5_apply, keepdims_apply, rowMaxV_apply]

/-- The tile's row softmax, as the kernel computes it. -/
def keyV (X : Vec Ideal S1x512x512 .f32) : FVec Ideal S512x512 .f32 :=
  divf (rexpV X) (broadcastTo S512x512 (shapeCast S512x1
    (multiReduction (F := Ideal) .add [1] S512 (rexpV X) 0x00000000#32 reduces_S512x512_S512 (.inl rfl) rfl)
    shapeCasts_S512_S512x1) broadcasts_S512x1_S512x512)

theorem keyV_apply (X : Vec Ideal S1x512x512 .f32) (r d : Fin 512) :
    keyV X (ix2 r d) = Ideal.div (rexp X r d) (∑ d' : Fin 512, rexp X r d') := by
  unfold keyV
  show Ideal.div (rexpV X (ix2 r d)) (broadcastTo S512x512 _ broadcasts_S512x1_S512x512 (ix2 r d)) = _
  rw [rexpV_apply, keepdims_apply]
  refine congrArg (Ideal.div (rexp X r d)) ?_
  refine (Ideal.multiReduction_add_single _ _ reduces_S512x512_S512 _ _ (ix1 r)).trans ?_
  show ∑ d' : Fin 512, rexpV X (reduces_S512x512_S512.lift (ix1 r) d') = _
  refine Finset.sum_congr rfl fun d' _ => ?_
  exact (congrArg (rexpV X) (lift1_ix2 reduces_S512x512_S512 r d')).trans (rexpV_apply X r d')

/-- One tile's update of the product accumulator, for any tile and any stored column maxima. -/
theorem pay8_gen (X : Vec Ideal S1x512x512 .f32) (C : Vec Ideal S1x512 .f32) (A : Vec Ideal S512x512 .f32) (d1 d2 : Fin 512) :
    k0_pay8 X C A (ix2 d1 d2) = A (ix2 d1 d2) + ∑ r : Fin 512,
      Ideal.div (rexp X r d1) (∑ d' : Fin 512, rexp X r d') * Ideal.exp (X (ix3 (0 : Fin 1) r d2) - C (ix2 (0 : Fin 1) d2)) := by
  unfold k0_pay8
  rw [shapeCast_self]
  show A (ix2 d1 d2) + matmul dot_S512x512_S512x512_S512x512_0_0_1_1_n_n none (truncf .bf16 (keyV X) bitsLt_bf16_f32)
    (truncf .bf16 (k0_pay6 X C) bitsLt_bf16_f32) (constant (F := Ideal) S512x512 .f32 0x00000000#32) (ix2 d1 d2) = _
  rw [dot_apply]
  refine congrArg (A (ix2 d1 d2) + ·) (Finset.sum_congr rfl fun r _ => ?_)
  show keyV X (ix2 r d1) * k0_pay6 X C (ix2 r d2) = _
  rw [keyV_apply, pay6_apply]

/-- One tile's update of the sums accumulator, for any tile and any stored column maxima. -/
theorem pay7_gen (X : Vec Ideal S1x512x512 .f32) (C : Vec Ideal S1x512 .f32) (B : Vec Ideal S1x512 .f32) (d2 : Fin 512) :
    k0_pay7 X C B (ix2 (0 : Fin 1) d2)
      = B (ix2 (0 : Fin 1) d2) + ∑ r : Fin 512, Ideal.exp (X (ix3 (0 : Fin 1) r d2) - C (ix2 (0 : Fin 1) d2)) := by
  unfold k0_pay7
  rw [shapeCast_self]
  show B (ix2 (0 : Fin 1) d2) + shapeCast S1x512 _ shapeCasts_S512_S1x512 (ix2 (0 : Fin 1) d2) = _
  refine congrArg (B (ix2 (0 : Fin 1) d2) + ·) ?_
  refine (shapeCast_a_1a_apply _ _ 0 d2).trans ?_
  refine (Ideal.multiReduction_add_single _ _ reduces_S512x512_S512_2 _ _ (ix1 d2)).trans ?_
  show ∑ r : Fin 512, k0_pay6 X C (reduces_S512x512_S512_2.lift (ix1 d2) r) = _
  refine Finset.sum_congr rfl fun r _ => ?_
  exact (congrArg (k0_pay6 X C) (lift0_ix2 reduces_S512x512_S512_2 d2 r)).trans (pay6_apply X C r d2)

/-- The row maximum of a loaded tile's row is the row maximum of that row of the block. -/
theorem rmax_tile (X1 : Vec Ideal S1x2048x512 .f32) (k : Fin k0_t1_loop.trips) (r : Fin 512) :
    rmax (tile1 X1 k) r = rowMax (rowsOf1 X1) (tileRow (tileNo k) r) := by
  unfold rmax rowMax
  refine congrArg (fun f => Finset.fold max (⊥ : EReal) f (Finset.univ : Finset (Fin 512))) ?_
  funext d
  exact tile1_apply X1 k r d

theorem rexp_tile (X1 : Vec Ideal S1x2048x512 .f32) (k : Fin k0_t1_loop.trips) (r d : Fin 512) :
    rexp (tile1 X1 k) r d = rowExp (rowsOf1 X1) (tileRow (tileNo k) r) d := by
  unfold rexp rowExp
  rw [tile1_apply, rmax_tile]

/-- One tile adds its keyWᵀ · colExp product to the product accumulator. -/
theorem pay8_apply (X1 : Vec Ideal S1x2048x512 .f32) (k : Fin k0_t1_loop.trips) (A : Vec Ideal S512x512 .f32)
    (d1 d2 : Fin 512) :
    k0_pay8 (tile1 X1 k) (colmaxV X1) A (ix2 d1 d2) = A (ix2 d1 d2) + tileKtq (rowsOf1 X1) (tileNo k) d1 d2 := by
  rw [pay8_gen]
  unfold tileKtq keyW colExp
  refine congrArg (A (ix2 d1 d2) + ·) (Finset.sum_congr rfl fun r _ => ?_)
  rw [tile1_apply, colmaxV_apply, rexp_tile]
  refine congrArg (fun s => Ideal.div _ s * _) ?_
  exact Finset.sum_congr rfl fun d' _ => rexp_tile X1 k r d'

/-- One tile adds its column sums of `colExp` to the sums accumulator. -/
theorem pay7_apply (X1 : Vec Ideal S1x2048x512 .f32) (k : Fin k0_t1_loop.trips) (B : Vec Ideal S1x512 .f32)
    (d2 : Fin 512) :
    k0_pay7 (tile1 X1 k) (colmaxV X1) B (ix2 (0 : Fin 1) d2) = B (ix2 (0 : Fin 1) d2) + tileDen (rowsOf1 X1) (tileNo k) d2 := by
  rw [pay7_gen]
  unfold tileDen colExp
  refine congrArg (B (ix2 (0 : Fin 1) d2) + ·) (Finset.sum_congr rfl fun r _ => ?_)
  rw [tile1_apply, colmaxV_apply]

/-- The zeroed accumulators read `0`. -/
theorem acc_fst_zero (X1 : Vec Ideal S1x2048x512 .f32) (d1 d2 : Fin 512) : (accV X1 0).1 (ix2 d1 d2) = 0 := by
  show k0_pay2 (F := Ideal) (ix2 d1 d2) = 0
  unfold k0_pay2
  rw [shapeCast_self]
  exact Ideal.ofBits_zero_f32

theorem acc_snd_zero (X1 : Vec Ideal S1x2048x512 .f32) (d2 : Fin 512) : (accV X1 0).2 (ix2 (0 : Fin 1) d2) = 0 := by
  show k0_pay3 (F := Ideal) (ix2 (0 : Fin 1) d2) = 0
  unfold k0_pay3
  rw [shapeCast_self]
  exact Ideal.ofBits_zero_f32

/-- Each trip adds its tile's contribution to each accumulator. -/
theorem acc_fst_succ (X1 : Vec Ideal S1x2048x512 .f32) (k : Fin k0_t1_loop.trips) (d1 d2 : Fin 512) :
    (accV X1 (k.val + 1)).1 (ix2 d1 d2)
      = (accV X1 k.val).1 (ix2 d1 d2) + tileKtq (rowsOf1 X1) (tileNo k) d1 d2 := by
  rw [accV_succ]
  exact pay8_apply X1 k _ d1 d2

theorem acc_snd_succ (X1 : Vec Ideal S1x2048x512 .f32) (k : Fin k0_t1_loop.trips) (d2 : Fin 512) :
    (accV X1 (k.val + 1)).2 (ix2 (0 : Fin 1) d2)
      = (accV X1 k.val).2 (ix2 (0 : Fin 1) d2) + tileDen (rowsOf1 X1) (tileNo k) d2 := by
  rw [accV_succ]
  exact pay7_apply X1 k _ d2

/-- The first pass's trips by number. -/
def trip (i : Nat) (h : i < 4) : Fin k0_t1_loop.trips := ⟨i, trips1 ▸ h⟩

/-- After the four tiles the accumulators hold `ktq` and `dq`. -/
theorem acc_ktq (X1 : Vec Ideal S1x2048x512 .f32) (d1 d2 : Fin 512) :
    (accV X1 k0_t1_loop.trips).1 (ix2 d1 d2) = ktq (rowsOf1 X1) d1 d2 := by
  have h3 : (accV X1 4).1 (ix2 d1 d2) = (accV X1 3).1 (ix2 d1 d2) + tileKtq (rowsOf1 X1) 3 d1 d2 :=
    acc_fst_succ X1 (trip 3 (by omega)) d1 d2
  have h2 : (accV X1 3).1 (ix2 d1 d2) = (accV X1 2).1 (ix2 d1 d2) + tileKtq (rowsOf1 X1) 2 d1 d2 :=
    acc_fst_succ X1 (trip 2 (by omega)) d1 d2
  have h1 : (accV X1 2).1 (ix2 d1 d2) = (accV X1 1).1 (ix2 d1 d2) + tileKtq (rowsOf1 X1) 1 d1 d2 :=
    acc_fst_succ X1 (trip 1 (by omega)) d1 d2
  have h0 : (accV X1 1).1 (ix2 d1 d2) = (accV X1 0).1 (ix2 d1 d2) + tileKtq (rowsOf1 X1) 0 d1 d2 :=
    acc_fst_succ X1 (trip 0 (by omega)) d1 d2
  rw [congrArg (accV X1) trips1, h3, h2, h1, h0, acc_fst_zero]
  rfl

theorem acc_dq (X1 : Vec Ideal S1x2048x512 .f32) (d2 : Fin 512) :
    (accV X1 k0_t1_loop.trips).2 (ix2 (0 : Fin 1) d2) = dq (rowsOf1 X1) d2 := by
  have h3 : (accV X1 4).2 (ix2 (0 : Fin 1) d2) = (accV X1 3).2 (ix2 (0 : Fin 1) d2) + tileDen (rowsOf1 X1) 3 d2 :=
    acc_snd_succ X1 (trip 3 (by omega)) d2
  have h2 : (accV X1 3).2 (ix2 (0 : Fin 1) d2) = (accV X1 2).2 (ix2 (0 : Fin 1) d2) + tileDen (rowsOf1 X1) 2 d2 :=
    acc_snd_succ X1 (trip 2 (by omega)) d2
  have h1 : (accV X1 2).2 (ix2 (0 : Fin 1) d2) = (accV X1 1).2 (ix2 (0 : Fin 1) d2) + tileDen (rowsOf1 X1) 1 d2 :=
    acc_snd_succ X1 (trip 1 (by omega)) d2
  have h0 : (accV X1 1).2 (ix2 (0 : Fin 1) d2) = (accV X1 0).2 (ix2 (0 : Fin 1) d2) + tileDen (rowsOf1 X1) 0 d2 :=
    acc_snd_succ X1 (trip 0 (by omega)) d2
  rw [congrArg (accV X1) trips1, h3, h2, h1, h0, acc_snd_zero]
  rfl

end Cert.KernelIdeal.PayTile

end
-- ==== Proof.PayOut.lean ====
/-
  The payloads between and in the second pass, read at an index: the normalised product folded with the projection,
  the bias tile, and one output tile.
-/
import proofs.«418091_j12678743458547_3_alg».proof.Proof.KerFn
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayOut

open Cert.KernelIdeal Cert.KernelIdeal.Gen Cert.KernelIdeal.Fn
open Idealize.ShloMosaic Idealize.ShloMosaic.ValueIdx

/-! ## The two contractions' operand indices, axis by axis

Both products are of two [512, 512] matrices into a [512, 512] result with one contracted axis. In the first the
contracted axis is axis 1 of BOTH operands (the right operand enters transposed): at result (i₀, i₁) and contraction
index q the left operand is read at (i₀, q) and the right at (i₁, q). In the second the contracted axis is axis 1 of
the left operand and axis 0 of the right (a plain matrix product): the left operand is read at (i₀, q) and the right
at (q, i₁). -/

theorem lhs_dot_S512x512_S512x512_S512x512_1_1_0_0_n_n_0 (i : S512x512.Idx)
    (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide),
    dif_pos (show (0 : Fin S512x512.rank) ∈ dot_S512x512_S512x512_S512x512_1_1_0_0_n_n.lhsNonContracting by decide)]
  rfl
theorem lhs_dot_S512x512_S512x512_S512x512_1_1_0_0_n_n_1 (i : S512x512.Idx)
    (q : dot_S512x512_S512x512_S512x512_1_1_0_0_n_n.contr.Idx) :
    (dot_S512x512_S512x512_S512x512_1_1_0_0_n_n.lhsIdx i q 1).val = (q ⟨0, by decide⟩).val :=
  dot_S512x512_S512x512_S512x512_1_1_0_0_n_n.lhsIdx_val_of_single rfl i q
theorem rhs_dot_S512x512_S512x512_S512x512_1_1_0_0_n_n_0 (i : S512x512.Idx)
    (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide),
    dif_pos (show (0 : Fin S512x512.rank) ∈ dot_S512x512_S512x512_S512x512_1_1_0_0_n_n.rhsNonContracting by decide)]
  rfl
theorem rhs_dot_S512x512_S512x512_S512x512_1_1_0_0_n_n_1 (i : S512x512.Idx)
    (q : dot_S512x512_S512x512_S512x512_1_1_0_0_n_n.contr.Idx) :
    (dot_S512x512_S512x512_S512x512_1_1_0_0_n_n.rhsIdx i q 1).val = (q ⟨0, by decide⟩).val :=
  dot_S512x512_S512x512_S512x512_1_1_0_0_n_n.rhsIdx_val_of_single rfl i q

theorem lhs_dot_S512x512_S512x512_S512x512_1_0_0_1_n_n_0 (i : S512x512.Idx)
    (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl
theorem lhs_dot_S512x512_S512x512_S512x512_1_0_0_1_n_n_1 (i : S512x512.Idx)
    (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_dot_S512x512_S512x512_S512x512_1_0_0_1_n_n_0 (i : S512x512.Idx)
    (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_dot_S512x512_S512x512_S512x512_1_0_0_1_n_n_1 (i : S512x512.Idx)
    (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl

/-- The product with the right operand transposed, into zero: at (d₁, e) the sum over the shared axis of
    left (d₁, k) times right (e, k). -/
theorem matmul_nt_apply (P Q : FVec Ideal S512x512 .bf16) (d1 e : Fin 512) :
    matmul (F := Ideal) dot_S512x512_S512x512_S512x512_1_1_0_0_n_n none P Q (constant (F := Ideal) S512x512 .f32 0x00000000#32) (ix2 d1 e)
      = ∑ k : Fin 512, P (ix2 d1 k) * Q (ix2 e k) := by
  refine (Ideal.matmul_constant_zero_apply dot_S512x512_S512x512_S512x512_1_1_0_0_n_n none P Q (ix2 d1 e)).trans ?_
  rw [← Equiv.sum_comp (ValueIdx.contrEquiv1 dot_S512x512_S512x512_S512x512_1_1_0_0_n_n 512 rfl rfl).symm]
  refine Finset.sum_congr rfl fun k _ => ?_
  have hk := ValueIdx.contrEquiv1_symm_val dot_S512x512_S512x512_S512x512_1_1_0_0_n_n 512 rfl rfl k
  have el : dot_S512x512_S512x512_S512x512_1_1_0_0_n_n.lhsIdx (ix2 d1 e)
      ((ValueIdx.contrEquiv1 dot_S512x512_S512x512_S512x512_1_1_0_0_n_n 512 rfl rfl).symm k) = ix2 d1 k :=
    funext fun a => Fin.ext (by
      match a with
      | ⟨0, _⟩ => exact lhs_dot_S512x512_S512x512_S512x512_1_1_0_0_n_n_0 _ _
      | ⟨1, _⟩ => exact (lhs_dot_S512x512_S512x512_S512x512_1_1_0_0_n_n_1 _ _).trans hk)
  have er : dot_S512x512_S512x512_S512x512_1_1_0_0_n_n.rhsIdx (ix2 d1 e)
      ((ValueIdx.contrEquiv1 dot_S512x512_S512x512_S512x512_1_1_0_0_n_n 512 rfl rfl).symm k) = ix2 e k :=
    funext fun a => Fin.ext (by
      match a with
      | ⟨0, _⟩ => exact rhs_dot_S512x512_S512x512_S512x512_1_1_0_0_n_n_0 _ _
      | ⟨1, _⟩ => exact (rhs_dot_S512x512_S512x512_S512x512_1_1_0_0_n_n_1 _ _).trans hk)
  rw [el, er]

/-- The plain matrix product into zero: at (r, e) the sum over the shared axis of left (r, k) times right (k, e). -/
theorem matmul_nn_apply (P Q : FVec Ideal S512x512 .bf16) (r e : Fin 512) :
    matmul (F := Ideal) dot_S512x512_S512x512_S512x512_1_0_0_1_n_n none P Q (constant (F := Ideal) S512x512 .f32 0x00000000#32) (ix2 r e)
      = ∑ k : Fin 512, P (ix2 r k) * Q (ix2 k e) := by
  refine (Ideal.matmul_constant_zero_apply dot_S512x512_S512x512_S512x512_1_0_0_1_n_n none P Q (ix2 r e)).trans ?_
  rw [← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 r e)
      ((ValueIdx.contrEquiv1 dot_S512x512_S512x512_S512x512_1_0_0_1_n_n 512 rfl rfl).symm k) = ix2 r k :=
    funext fun a => Fin.ext (by
      match a with
      | ⟨0, _⟩ => exact lhs_dot_S512x512_S512x512_S512x512_1_0_0_1_n_n_0 _ _
      | ⟨1, _⟩ => exact (lhs_dot_S512x512_S512x512_S512x512_1_0_0_1_n_n_1 _ _).trans hk)
  have er : dot_S512x512_S512x512_S512x512_1_0_0_1_n_n.rhsIdx (ix2 r e)
      ((ValueIdx.contrEquiv1 dot_S512x512_S512x512_S512x512_1_0_0_1_n_n 512 rfl rfl).symm k) = ix2 k e :=
    funext fun a => Fin.ext (by
      match a with
      | ⟨0, _⟩ => exact (rhs_dot_S512x512_S512x512_S512x512_1_0_0_1_n_n_0 _ _).trans hk
      | ⟨1, _⟩ => exact rhs_dot_S512x512_S512x512_S512x512_1_0_0_1_n_n_1 _ _)
  rw [el, er]

/-- The accumulated product divided column by column by the accumulated sums, times the projection's transpose. -/
theorem pay9_apply (A : Vec Ideal S512x512 .f32) (B : Vec Ideal S1x512 .f32) (X2 : Vec Ideal S512x512 .f32)
    (d1 e : Fin 512) :
    k0_pay9 A B X2 (ix2 d1 e) = ∑ d2 : Fin 512, Ideal.div (A (ix2 d1 d2)) (B (ix2 (0 : Fin 1) d2)) * X2 (ix2 e d2) := by
  unfold k0_pay9
  -- the last narrowing is the identity; the product reads its operands at (d₁, k) and (e, k)
  refine (matmul_nt_apply _ _ d1 e).trans ?_
  refine Finset.sum_congr rfl fun d2 _ => ?_
  -- both narrowings are the identity, the quotient is taken entry by entry, and the divisor's row is the same in
  -- every row of the spread
  show Ideal.div (A (ix2 d1 d2)) (broadcastTo S512x512 B broadcasts_S1x512_S512x512 (ix2 d1 d2)) * X2 (ix2 e d2) = _
  rw [broadcastTo_1b_ab_apply B broadcasts_S1x512_S512x512 d1 d2]

/-- The bias tile holds the bias of its column in every row. -/
theorem pay10_apply (X3 : Vec Ideal S512 .f32) (r e : Fin 512) : k0_pay10 X3 (ix2 r e) = X3 (ix1 e) := by
  unfold k0_pay10
  exact (broadcastTo_1b_ab_apply _ broadcasts_S1x512_S512x512 r e).trans
    (shapeCast_a_1a_apply X3 shapeCasts_S512_S1x512 (0 : Fin 1) e)

/-- An output tile: the value tile's row times the folded projection, plus the bias tile. -/
theorem pay1_apply (Pm : FVec Ideal S512x512 .bf16) (Bm : FVec Ideal S512x512 .f32) (T : Vec Ideal S1x512x512 .f32)
    (r e : Fin 512) :
    k0_pay1 Pm Bm T (ix3 (0 : Fin 1) r e) = (∑ d1 : Fin 512, T (ix3 (0 : Fin 1) r d1) * Pm (ix2 d1 e)) + Bm (ix2 r e) := by
  unfold k0_pay1
  -- the cast back adds the unit axis: the entry at (0, r, e) is the matrix's at (r, e)
  refine (shapeCast_ab_1ab_apply _ shapeCasts_S512x512_S1x512x512 (0 : Fin 1) r e).trans ?_
  -- the sum with the bias tile is entry by entry
  refine (addf_apply _ _ (ix2 r e)).trans ?_
  refine congrArg (· + Bm (ix2 r e)) ?_
  refine (matmul_nn_apply _ Pm r e).trans ?_
  refine Finset.sum_congr rfl fun d1 _ => ?_
  -- the narrowing is the identity and the first cast drops the unit axis
  show shapeCast S512x512 T shapeCasts_S1x512x512_S512x512 (ix2 r d1) * Pm (ix2 d1 e) = _
  rw [shapeCast_1ab_ab_apply T shapeCasts_S1x512x512_S512x512 r d1]

end Cert.KernelIdeal.PayOut

end
-- ==== Proof.KerAt.lean ====
/-
  The kernel's output block at row `n`, feature `e` is the formula `kerOut` of the block's scores and values.
-/
import proofs.«418091_j12678743458547_3_alg».proof.Proof.PayTile
import proofs.«418091_j12678743458547_3_alg».proof.Proof.PayOut

noncomputable section

namespace Cert.KernelIdeal.KerAt

open Cert.KernelIdeal Cert.KernelIdeal.Gen Cert.KernelIdeal.Fn Cert.KernelIdeal.PayTile Cert.KernelIdeal.PayOut Cert.LinAttn
open Idealize.ShloMosaic Idealize.ShloMosaic.ValueIdx

/-- The folded projection at (d₁, e): the accumulated product over the accumulated sums, times the projection. -/
theorem projV_apply (X1 : Vec Ideal S1x2048x512 .f32) (X2 : Vec Ideal S512x512 .f32) (d1 e : Fin 512) :
    projV X1 X2 (ix2 d1 e) = projW (rowsOf1 X1) (matOf X2) d1 e := by
  unfold projV projW
  rw [pay9_apply]
  refine Finset.sum_congr rfl fun d2 _ => ?_
  rw [acc_ktq, acc_dq]
  rfl

/-- Row `n` of the value block, read through the tile that holds it. -/
theorem tile2_apply (X0 : Vec Ideal S1x2048x512 .f32) (n : Fin 2048) (e d : Fin 512) :
    tile2 X0 (tileOf (ix3 (0 : Fin 1) n e)) (ix3 (0 : Fin 1) (⟨n.val % 512, Nat.mod_lt _ (by decide)⟩ : Fin 512) d)
      = rowsOf1 X0 n d := by
  show X0 ((Rect.unit (s := S1x2048x512) (k0_off2 (tileOf (ix3 (0 : Fin 1) n e))) S1x512x512.size (k0_off2_inb _)).idx _) = X0 (ix3 (0 : Fin 1) n d)
  refine congrArg X0 (funext fun a => Fin.ext ?_)
  rw [LoadRect.idx_apply]
  match a with
  | ⟨0, _⟩ =>
    show (k0_off2 (tileOf (ix3 (0 : Fin 1) n e))) 0 + 1 * 0 = 0
    rw [off2_eq]; rfl
  | ⟨1, _⟩ =>
    show (k0_off2 (tileOf (ix3 (0 : Fin 1) n e))) 1 + 1 * (n.val % 512) = n.val
    rw [off2_eq]
    show 512 * (n.val / 512) + 1 * (n.val % 512) = n.val
    omega
  | ⟨2, _⟩ =>
    show (k0_off2 (tileOf (ix3 (0 : Fin 1) n e))) 2 + 1 * d.val = d.val
    rw [off2_eq]
    show 0 + 1 * d.val = d.val
    omega

/-- The block the kernel leaves, at (n, e): `∑ d₁ x n d₁ · projW d₁ e + bv e`. -/
theorem kerBlock_apply (X0 X1 : Vec Ideal S1x2048x512 .f32) (X2 : Vec Ideal S512x512 .f32) (X3 : Vec Ideal S512 .f32)
    (n : Fin 2048) (e : Fin 512) :
    kerBlock X0 X1 X2 X3 (ix3 (0 : Fin 1) n e) = kerOut (rowsOf1 X1) (rowsOf1 X0) (matOf X2) (vecOf X3) n e := by
  have hin : inTile (ix3 (0 : Fin 1) n e) = ix3 (0 : Fin 1) (⟨n.val % 512, Nat.mod_lt _ (by decide)⟩ : Fin 512) e :=
    funext fun a => by match a with | ⟨0, _⟩ => rfl | ⟨1, _⟩ => rfl | ⟨2, _⟩ => rfl
  show k0_pay1 (projV X1 X2) (biasV X3) (tile2 X0 (tileOf (ix3 (0 : Fin 1) n e))) (inTile (ix3 (0 : Fin 1) n e)) = _
  rw [hin, pay1_apply]
  unfold kerOut
  refine congrArg₂ (· + ·) (Finset.sum_congr rfl fun d1 _ => ?_) ?_
  · rw [tile2_apply, projV_apply]
  · unfold biasV
    rw [pay10_apply]
    rfl

end Cert.KernelIdeal.KerAt

end
-- ==== Proof.Blocks.lean ====
/-
  From the blocks to the array: after the run the result array is `G` of the four argument arrays.

  Grid point `t` stages batch `t` of the values and of the scores, the whole projection and the whole bias, and
  writes back batch `t` of the result; what it writes is `kerBlock` of those blocks, which at (n, e) is the formula
  `kerOut` of batch `t`. The eight batches cover the result array.
-/
import proofs.«418091_j12678743458547_3_alg».proof.Proof.Gen.KernelIdeal.Value
import proofs.«418091_j12678743458547_3_alg».proof.Proof.KerRun
import proofs.«418091_j12678743458547_3_alg».proof.Proof.KerAt

set_option maxRecDepth 16384

noncomputable section

namespace Cert.KernelIdeal.Blocks

open Cert.KernelIdeal Cert.KernelIdeal.Gen Cert.KernelIdeal.Value Cert.KernelIdeal.Fn Cert.LinAttn
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The result array: `G` of the argument arrays as the region finds them. -/
abbrev GV (c : Dev nD) : FVec Ideal S8x2048x512 .f32 :=
  G (V m c main_arg0) (V m c main_arg1) (V m c main_arg2) (V m c main_arg3)

/-- The four input blocks at grid point `t`, at their literal shapes. -/
abbrev xb (c : Dev nD) (t : Fin cfg0.N) : Vec Ideal S1x2048x512 .f32 := iblk m c 0 t
abbrev sb (c : Dev nD) (t : Fin cfg0.N) : Vec Ideal S1x2048x512 .f32 := iblk m c 1 t
abbrev wb (c : Dev nD) (t : Fin cfg0.N) : Vec Ideal S512x512 .f32 := iblk m c 2 t
abbrev bb (c : Dev nD) (t : Fin cfg0.N) : Vec Ideal S512 .f32 := iblk m c 3 t

/-- Grid point `t` is batch `t`. -/
def batchOf (t : Fin cfg0.N) : Fin 8 := ⟨t.val, by have h := t.isLt; have e : cfg0.N = 8 := N_0; omega⟩

/-- The block indices, decided over the eight grid points: the three batched windows sit at batch `t`, the
    projection and the bias at their one block. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 3) = t.val ∧ win0_4.index t (1 : Fin 3) = 0 ∧ win0_4.index t (2 : Fin 3) = 0 :=
  (by decide +kernel : ∀ t : Fin grid0.N, _)

/-- The value block at point `t` is batch `t` of the values. -/
theorem rows_x (c : Dev nD) (t : Fin cfg0.N) : rowsOf1 (xb m c t) = rowsOf (V m c main_arg0) (batchOf t) := by
  funext n d
  show V m c main_arg0 (((cfg0.win 0).blk t).view.emb (ix3 (0 : Fin 1) n d)) = V m c main_arg0 (ix3 (batchOf t) n d)
  refine congrArg _ (funext fun a => Fin.ext ?_)
  obtain ⟨e0, e1, e2, -⟩ := idx_facts t
  match a with
  | ⟨0, _⟩ => show win0_0.index t (0 : Fin 3) * 1 + 1 * 0 = t.val; omega
  | ⟨1, _⟩ => show win0_0.index t (1 : Fin 3) * 2048 + 1 * n.val = n.val; omega
  | ⟨2, _⟩ => show win0_0.index t (2 : Fin 3) * 512 + 1 * d.val = d.val; omega

/-- The score block at point `t` is batch `t` of the scores. -/
theorem rows_s (c : Dev nD) (t : Fin cfg0.N) : rowsOf1 (sb m c t) = rowsOf (V m c main_arg1) (batchOf t) := by
  funext n d
  show V m c main_arg1 (((cfg0.win 1).blk t).view.emb (ix3 (0 : Fin 1) n d)) = V m c main_arg1 (ix3 (batchOf t) n d)
  refine congrArg _ (funext fun a => Fin.ext ?_)
  obtain ⟨-, -, -, e0, e1, e2, -⟩ := idx_facts t
  match a with
  | ⟨0, _⟩ => show win0_1.index t (0 : Fin 3) * 1 + 1 * 0 = t.val; omega
  | ⟨1, _⟩ => show win0_1.index t (1 : Fin 3) * 2048 + 1 * n.val = n.val; omega
  | ⟨2, _⟩ => show win0_1.index t (2 : Fin 3) * 512 + 1 * d.val = d.val; omega

/-- The projection block is the whole projection. -/
theorem mat_w (c : Dev nD) (t : Fin cfg0.N) : matOf (wb m c t) = matOf (V m c main_arg2) := by
  funext e d
  show V m c main_arg2 (((cfg0.win 2).blk t).view.emb (ix2 e d)) = V m c main_arg2 (ix2 e d)
  refine congrArg _ (funext fun a => Fin.ext ?_)
  obtain ⟨-, -, -, -, -, -, e0, e1, -⟩ := idx_facts t
  match a with
  | ⟨0, _⟩ => show win0_2.index t (0 : Fin 2) * 512 + 1 * e.val = e.val; omega
  | ⟨1, _⟩ => show win0_2.index t (1 : Fin 2) * 512 + 1 * d.val = d.val; omega

/-- The bias block is the whole bias. -/
theorem vec_b (c : Dev nD) (t : Fin cfg0.N) : vecOf (bb m c t) = vecOf (V m c main_arg3) := by
  funext e
  show V m c main_arg3 (((cfg0.win 3).blk t).view.emb (ix1 e)) = V m c main_arg3 (ix1 e)
  refine congrArg _ (funext fun a => Fin.ext ?_)
  obtain ⟨-, -, -, -, -, -, -, -, e0, -⟩ := idx_facts t
  match a with
  | ⟨0, _⟩ => show win0_3.index t (0 : Fin 1) * 512 + 1 * e.val = e.val; omega

/-- What the body leaves in the output block at point `t` is `kerBlock` of the point's input blocks. -/
theorem outsAt_eq (c : Dev nD) (t : Fin cfg0.N) :
    outsAt0 m c t = kerBlock (xb m c t) (sb m c t) (wb m c t) (bb m c t) := by
  unfold outsAt0
  exact KerRun.out0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (xb m c t) (sb m c t) (wb m c t) (bb m c t)

/-- WHAT POINT `t` WRITES BACK is block `t` of the result array `GV`. -/
theorem flushed_eq (c : Dev nD) (t : Fin cfg0.N) :
    (dats m 0 c).flushed 4 t = ((cfg0.win 4).blk t).view.read (Elt Ideal) (GV m c) := by
  rw [flushed4, outsAt_eq]
  funext j
  have h0 : (j 0).val < 1 := (j 0).isLt
  have h1 : (j 1).val < 2048 := (j 1).isLt
  have h2 : (j 2).val < 512 := (j 2).isLt
  have hx : (cfg0.win 4).xinj (grid0.coords t) j = ix3 (0 : Fin 1) (⟨(j 1).val, h1⟩ : Fin 2048) (⟨(j 2).val, h2⟩ : Fin 512) :=
    funext fun a => Fin.ext (by
      match a with
      | ⟨0, _⟩ => show (j 0).val = 0; omega
      | ⟨1, _⟩ => rfl
      | ⟨2, _⟩ => rfl)
  have hemb : ((cfg0.win 4).blk t).view.emb j = ix3 (batchOf t) (⟨(j 1).val, h1⟩ : Fin 2048) (⟨(j 2).val, h2⟩ : Fin 512) :=
    funext fun a => Fin.ext (by
      obtain ⟨-, -, -, -, -, -, -, -, -, e0, e1, e2⟩ := idx_facts t
      match a with
      | ⟨0, _⟩ => show win0_4.index t (0 : Fin 3) * 1 + 1 * (j 0).val = t.val; omega
      | ⟨1, _⟩ => show win0_4.index t (1 : Fin 3) * 2048 + 1 * (j 1).val = (j 1).val; omega
      | ⟨2, _⟩ => show win0_4.index t (2 : Fin 3) * 512 + 1 * (j 2).val = (j 2).val; omega)
  show kerBlock (xb m c t) (sb m c t) (wb m c t) (bb m c t) ((cfg0.win 4).xinj (grid0.coords t) j)
    = GV m c (((cfg0.win 4).blk t).view.emb j)
  rw [hx, hemb, KerAt.kerBlock_apply, rows_x, rows_s, mat_w, vec_b]
  rfl

/-- An index of the result array is in point `t`'s block iff each coordinate is in the block's range on its axis. -/
theorem mem_blk (t : Fin cfg0.N) (i : S8x2048x512.Idx) :
    i ∈ ((cfg0.win 4).blk t).view.set ↔ ∀ a : Fin 3, win0_4.index t a * S1x2048x512.size a ≤ (i a).val ∧ (i a).val < win0_4.index t a * S1x2048x512.size a + S1x2048x512.size a := by
  show i ∈ ((View.whole main_v0).slice (win0_4.rect t)).set ↔ _
  rw [View.set_slice_whole, Rect.mem_set_unit]
  exact Iff.rfl

/-- Every index of the result array lies in the block of its batch's point. -/
theorem cover (i : S8x2048x512.Idx) :
    ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 512 := (i 2).isLt
  have hN : cfg0.N = 8 := N_0
  refine ⟨⟨(i 0).val, by omega⟩, flush0_4 _, ?_⟩
  rw [mem_blk]
  obtain ⟨-, -, -, -, -, -, -, -, -, e0, e1, e2⟩ := idx_facts ⟨(i 0).val, by omega⟩
  have e0' : win0_4.index (⟨(i 0).val, by omega⟩ : Fin cfg0.N) (0 : Fin 3) = (i 0).val := e0
  intro a
  match a with
  | ⟨0, _⟩ => show win0_4.index _ (0 : Fin 3) * 1 ≤ (i 0).val ∧ (i 0).val < win0_4.index _ (0 : Fin 3) * 1 + 1; rw [e0']; omega
  | ⟨1, _⟩ => show win0_4.index _ (1 : Fin 3) * 2048 ≤ (i 1).val ∧ (i 1).val < win0_4.index _ (1 : Fin 3) * 2048 + 2048; rw [e1]; omega
  | ⟨2, _⟩ => show win0_4.index _ (2 : Fin 3) * 512 ≤ (i 2).val ∧ (i 2).val < win0_4.index _ (2 : Fin 3) * 512 + 512; rw [e2]; omega

/-- THE ARRAY after the run is `GV`. -/
theorem final (c : Dev nD) : (dats m 0 c).arrAt 4 cfg0.N = GV m c :=
  (dats m 0 c).arrAt_eq_of_cover 4 (GV m c) (fun t _ => flushed_eq m c t) (cover)

end Cert.KernelIdeal.Blocks

end
-- ==== Proof.RefIs.lean ====
/-
  The reference's result, index by index, is the formula `refOut` of its batch.
-/
import proofs.«418091_j12678743458547_3_alg».proof.Proof.Gen.ReferenceIdeal.Read
import proofs.«418091_j12678743458547_3_alg».proof.Proof.Coords
import Idealize.ShloMosaic.PureOps.Ideal.Laws
import Idealize.ShloMosaic.Lib.ValueIdx
import Idealize.ShloMosaic.Lib.Pipeline.Value

noncomputable section

namespace Cert.ReferenceIdeal.RefIs

open Cert.ReferenceIdeal Cert.ReferenceIdeal.Gen Cert.ReferenceIdeal.Read Cert.LinAttn
open Idealize.ShloMosaic Idealize.ShloMosaic.ValueIdx

/-- −∞ as the printed constant. -/
theorem negInf_eq : Ideal.ofBits .f32 0xFF800000#32 = (⊥ : EReal) := by simp [Ideal.ofBits, Ideal.ieee]

/-- Result index (b, n) with feature d put back on the dropped last axis is (b, n, d). -/
theorem lift_d2 (h : S8x2048x512.Reduces [2] S8x2048) (j : S8x2048.Idx) (k : Fin (S8x2048x512.size 2)) :
    h.lift j k = ix3 (⟨(j 0).val, (j 0).isLt⟩ : Fin 8) (⟨(j 1).val, (j 1).isLt⟩ : Fin 2048) (⟨k.val, k.isLt⟩ : Fin 512) := by
  funext c; apply Fin.ext
  match c with
  | ⟨0, _⟩ => rfl
  | ⟨1, _⟩ => rfl
  | ⟨2, _⟩ => rfl

/-- The reference's row maximum at (b, n) is rowMax of batch b at row n. -/
theorem v2_at (Y1 : FVec Ideal S8x2048x512 .f32) (j : S8x2048.Idx) :
    val_main_v2 (F := Ideal) Y1 j = rowMax (rowsOf Y1 ⟨(j 0).val, (j 0).isLt⟩) ⟨(j 1).val, (j 1).isLt⟩ := by
  have h : S8x2048x512.Reduces [2] S8x2048 := by decide
  rw [val_main_v2_apply, val_main_v1_apply, val_main_cst_0_apply]
  unfold val_main_v0
  rw [Host.reduce_eq_fold_single FloatOps.maximumf Y1 _ reducesTo_S8x2048x512_S8x2048_d2 h h_S_ j]
  rw [val_main_cst_apply]
  simp only [Ideal.ofBits_def, Ideal.maximumf_def, negInf_eq]
  rw [max_eq_right bot_le]
  unfold rowMax rowsOf
  have hf : (Y1 ∘ h.lift j) = fun d : Fin 512 => Y1 (ix3 (⟨(j 0).val, (j 0).isLt⟩ : Fin 8) (⟨(j 1).val, (j 1).isLt⟩ : Fin 2048) d) :=
    funext fun k => congrArg Y1 (lift_d2 h j k)
  exact congrArg (fun f => Finset.fold max (⊥ : EReal) f (Finset.univ : Finset (Fin 512))) hf

/-- Result index (b, d) with row n put back on the dropped middle axis is (b, n, d). -/
theorem lift_d1 (h : S8x2048x512.Reduces [1] S8x512) (j : S8x512.Idx) (k : Fin (S8x2048x512.size 1)) :
    h.lift j k = ix3 (⟨(j 0).val, (j 0).isLt⟩ : Fin 8) (⟨k.val, k.isLt⟩ : Fin 2048) (⟨(j 1).val, (j 1).isLt⟩ : Fin 512) := by
  funext c; apply Fin.ext
  match c with
  | ⟨0, _⟩ => rfl
  | ⟨1, _⟩ => rfl
  | ⟨2, _⟩ => rfl

/-- The reference's column maximum at (b, d) is colMax of batch b at feature d. -/
theorem v13_at (Y1 : FVec Ideal S8x2048x512 .f32) (j : S8x512.Idx) :
    val_main_v13 (F := Ideal) Y1 j = colMax (rowsOf Y1 ⟨(j 0).val, (j 0).isLt⟩) ⟨(j 1).val, (j 1).isLt⟩ := by
  have h : S8x2048x512.Reduces [1] S8x512 := by decide
  rw [val_main_v13_apply, val_main_v12_apply, val_main_cst_3_apply]
  unfold val_main_v11
  rw [Host.reduce_eq_fold_single FloatOps.maximumf Y1 _ reducesTo_S8x2048x512_S8x512_d1 h h_S_ j]
  rw [val_main_cst_2_apply]
  simp only [Ideal.ofBits_def, Ideal.maximumf_def, negInf_eq]
  rw [max_eq_right bot_le]
  unfold colMax rowsOf
  have hf : (Y1 ∘ h.lift j) = fun n : Fin 2048 => Y1 (ix3 (⟨(j 0).val, (j 0).isLt⟩ : Fin 8) n (⟨(j 1).val, (j 1).isLt⟩ : Fin 512)) :=
    funext fun k => congrArg Y1 (lift_d1 h j k)
  exact congrArg (fun f => Finset.fold max (⊥ : EReal) f (Finset.univ : Finset (Fin 2048))) hf

/-- An entry of a [8, 2048, 512] array is the entry of its batch at (row, feature). -/
theorem at_coords (Y : FVec Ideal S8x2048x512 .f32) (i : S8x2048x512.Idx) :
    Y i = rowsOf Y ⟨(i 0).val, (i 0).isLt⟩ ⟨(i 1).val, (i 1).isLt⟩ ⟨(i 2).val, (i 2).isLt⟩ :=
  congrArg Y (funext fun a => by
    match a with
    | ⟨0, _⟩ => rfl
    | ⟨1, _⟩ => rfl
    | ⟨2, _⟩ => rfl)

/-- exp (score − row maximum), at (b, n, d). -/
theorem v6_at (Y1 : FVec Ideal S8x2048x512 .f32) (i : S8x2048x512.Idx) :
    val_main_v6 (F := Ideal) Y1 i
      = rowExp (rowsOf Y1 ⟨(i 0).val, (i 0).isLt⟩) ⟨(i 1).val, (i 1).isLt⟩ ⟨(i 2).val, (i 2).isLt⟩ := by
  rw [val_main_v6_apply, val_main_v5_apply, val_main_v4_apply, val_main_v3_apply, v2_at, at_coords Y1 i]
  simp only [Ideal.hostUnary_exp_def, Ideal.subf_def]
  rfl

/-- The row's sum of those exponentials, at (b, n). -/
theorem v7_at (Y1 : FVec Ideal S8x2048x512 .f32) (j : S8x2048.Idx) :
    val_main_v7 (F := Ideal) Y1 j
      = ∑ d : Fin 512, rowExp (rowsOf Y1 ⟨(j 0).val, (j 0).isLt⟩) ⟨(j 1).val, (j 1).isLt⟩ d := by
  rw [val_main_v7_apply, val_main_cst_1_apply]
  simp only [Ideal.ofBits_def, Ideal.ofBits_zero_f32, zero_add]
  refine Finset.sum_congr rfl fun k _ => ?_
  rw [v6_at]

/-- The key stage: the softmax over the features of a row, at (b, n, d). -/
theorem v10_at (Y1 : FVec Ideal S8x2048x512 .f32) (i : S8x2048x512.Idx) :
    val_main_v10 (F := Ideal) Y1 i
      = keyW (rowsOf Y1 ⟨(i 0).val, (i 0).isLt⟩) ⟨(i 1).val, (i 1).isLt⟩ ⟨(i 2).val, (i 2).isLt⟩ := by
  rw [val_main_v10_apply, val_main_v9_apply, val_main_v8_apply, v6_at, v7_at]
  simp only [Ideal.hostDivf_def]
  rfl

/-- exp (score − column maximum), at (b, n, d). -/
theorem v17_at (Y1 : FVec Ideal S8x2048x512 .f32) (i : S8x2048x512.Idx) :
    val_main_v17 (F := Ideal) Y1 i
      = colExp (rowsOf Y1 ⟨(i 0).val, (i 0).isLt⟩) ⟨(i 1).val, (i 1).isLt⟩ ⟨(i 2).val, (i 2).isLt⟩ := by
  rw [val_main_v17_apply, val_main_v16_apply, val_main_v15_apply, val_main_v14_apply, v13_at, at_coords Y1 i]
  simp only [Ideal.hostUnary_exp_def, Ideal.subf_def]
  rfl

/-- The column's sum of those exponentials, at (b, d). -/
theorem v18_at (Y1 : FVec Ideal S8x2048x512 .f32) (j : S8x512.Idx) :
    val_main_v18 (F := Ideal) Y1 j = colDen (rowsOf Y1 ⟨(j 0).val, (j 0).isLt⟩) ⟨(j 1).val, (j 1).isLt⟩ := by
  rw [val_main_v18_apply, val_main_cst_4_apply]
  simp only [Ideal.ofBits_def, Ideal.ofBits_zero_f32, zero_add]
  unfold colDen
  refine Finset.sum_congr rfl fun k _ => ?_
  rw [v17_at]

/-- The query stage: the softmax over the rows of a feature, at (b, n, d). -/
theorem v21_at (Y1 : FVec Ideal S8x2048x512 .f32) (i : S8x2048x512.Idx) :
    val_main_v21 (F := Ideal) Y1 i
      = Ideal.div (colExp (rowsOf Y1 ⟨(i 0).val, (i 0).isLt⟩) ⟨(i 1).val, (i 1).isLt⟩ ⟨(i 2).val, (i 2).isLt⟩)
          (colDen (rowsOf Y1 ⟨(i 0).val, (i 0).isLt⟩) ⟨(i 2).val, (i 2).isLt⟩) := by
  rw [val_main_v21_apply, val_main_v20_apply, val_main_v19_apply, v17_at, v18_at]
  simp only [Ideal.hostDivf_def]

/-- Values times keys: at (b, n, m) the sum over the features of value (n, d₁) times key weight (m, d₁). -/
theorem v22_at (Y0 Y1 : FVec Ideal S8x2048x512 .f32) (i : S8x2048x2048.Idx) :
    val_main_v22 (F := Ideal) Y0 Y1 i
      = ∑ d1 : Fin 512, rowsOf Y0 ⟨(i 0).val, (i 0).isLt⟩ ⟨(i 1).val, (i 1).isLt⟩ d1
          * keyW (rowsOf Y1 ⟨(i 0).val, (i 0).isLt⟩) ⟨(i 2).val, (i 2).isLt⟩ d1 := by
  rw [val_main_v22_apply]
  refine Finset.sum_congr rfl fun k _ => ?_
  rw [v10_at, at_coords Y0]

/-- Times the query stage: at (b, n, d₂) the sum over the rows m. -/
theorem v23_at (Y0 Y1 : FVec Ideal S8x2048x512 .f32) (i : S8x2048x512.Idx) :
    val_main_v23 (F := Ideal) Y0 Y1 i
      = ∑ m : Fin 2048,
          (∑ d1 : Fin 512, rowsOf Y0 ⟨(i 0).val, (i 0).isLt⟩ ⟨(i 1).val, (i 1).isLt⟩ d1
              * keyW (rowsOf Y1 ⟨(i 0).val, (i 0).isLt⟩) m d1)
            * Ideal.div (colExp (rowsOf Y1 ⟨(i 0).val, (i 0).isLt⟩) m ⟨(i 2).val, (i 2).isLt⟩)
                (colDen (rowsOf Y1 ⟨(i 0).val, (i 0).isLt⟩) ⟨(i 2).val, (i 2).isLt⟩) := by
  rw [val_main_v23_apply]
  refine Finset.sum_congr rfl fun k _ => ?_
  rw [v22_at, v21_at]

/-- The bias broadcast over batches and rows, at (b, n, e). -/
theorem v26_at (Y3 : FVec Ideal S512 .f32) (i : S8x2048x512.Idx) :
    val_main_v26 (F := Ideal) Y3 i = vecOf Y3 ⟨(i 2).val, (i 2).isLt⟩ := by
  rw [val_main_v26_apply, val_main_v25_apply]
  exact congrArg Y3 (funext fun a => by
    match a with
    | ⟨0, _⟩ => rfl)

/-- At (b, n, e) the reference's last stage is `refOut` of batch `b`'s scores and values, the projection and the bias. -/
theorem ref_apply (Y0 Y1 : FVec Ideal S8x2048x512 .f32) (Y2 : FVec Ideal S512x512 .f32) (Y3 : FVec Ideal S512 .f32)
    (i : S8x2048x512.Idx) :
    val_main_v27 (F := Ideal) Y0 Y1 Y2 Y3 i
      = refOut (rowsOf Y1 ⟨(i 0).val, (i 0).isLt⟩) (rowsOf Y0 ⟨(i 0).val, (i 0).isLt⟩) (matOf Y2) (vecOf Y3)
          ⟨(i 1).val, (i 1).isLt⟩ ⟨(i 2).val, (i 2).isLt⟩ := by
  rw [val_main_v27_apply, val_main_v24_apply, v26_at]
  simp only [Ideal.addf_def]
  unfold refOut
  refine congrArg (· + _) (Finset.sum_congr rfl fun k _ => ?_)
  rw [v23_at]
  have hW : Y2 (ridx_main_v24 i k) = matOf Y2 ⟨(i 2).val, (i 2).isLt⟩ k :=
    congrArg Y2 (funext fun a => by
      match a with
      | ⟨0, _⟩ => rfl
      | ⟨1, _⟩ => rfl)
  rw [hW]

end Cert.ReferenceIdeal.RefIs

end
-- ==== Proof.SpecLaw.lean ====
/-
  The kernel's contraction order and the reference's give the same number.
-/
import proofs.«418091_j12678743458547_3_alg».proof.Proof.Spec

noncomputable section

namespace Cert.LinAttn

open Idealize.ShloMosaic

/-! ### Finite sums and maxima of reals inside the extended reals -/

/-- The coercion of a finite sum of reals is the sum of the coercions. -/
theorem coe_finsum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The maximum, started from -∞, of a nonempty finite family of reals is one of them, hence a real:
    for one element it is that element; adding an element to a family whose maximum is the real m
    gives the larger of the two reals. -/
theorem fold_max_real {ι : Type*} (f : ι → ℝ) {s : Finset ι} (hs : s.Nonempty) :
    ∃ m : ℝ, s.fold max ⊥ (fun i => (f i : EReal)) = (m : EReal) := by
  induction hs using Finset.Nonempty.cons_induction with
  | singleton i => exact ⟨f i, by rw [Finset.fold_singleton]; exact max_eq_left bot_le⟩
  | cons i s hi hs ih =>
    obtain ⟨m, hm⟩ := ih
    rw [Finset.fold_cons, hm]
    rcases le_total (f i) m with h | h
    · exact ⟨m, max_eq_right (EReal.coe_le_coe_iff.2 h)⟩
    · exact ⟨f i, max_eq_left (EReal.coe_le_coe_iff.2 h)⟩

/-! ### The 2048 rows are four tiles of 512 rows -/

/-- Row 512 k + r corresponds to the pair (k, r); the inverse is division with remainder by 512. -/
def tileEquiv : Fin 4 × Fin 512 ≃ Fin 2048 where
  toFun p := tileRow p.1 p.2
  invFun m := (⟨m.val / 512, by omega⟩, ⟨m.val % 512, Nat.mod_lt _ (by decide)⟩)
  left_inv p := by
    rcases p with ⟨k, r⟩
    apply Prod.ext <;> apply Fin.ext <;> simp only [tileRow] <;> omega
  right_inv m := by
    apply Fin.ext; simp only [tileRow]; omega

/-- Accumulating the four tile sums from zero, in order, gives the sum over all 2048 rows. -/
theorem sum_tiles {M : Type*} [AddCommMonoid M] (f : Fin 2048 → M) :
    (((0 + ∑ r : Fin 512, f (tileRow 0 r)) + ∑ r : Fin 512, f (tileRow 1 r)) + ∑ r : Fin 512, f (tileRow 2 r))
      + ∑ r : Fin 512, f (tileRow 3 r) = ∑ m : Fin 2048, f m := by
  rw [← Equiv.sum_comp tileEquiv f, Fintype.sum_prod_type, Fin.sum_univ_four, zero_add]
  rfl

/-! ### The re-association over the reals -/

/-- Both sides are the triple sum of  x d₁ · K m d₁ · E m d₂ · c d₂ · w d₂  over (d₁, d₂, m): distribute every
    product over its sum and interchange the order of summation. -/
theorem reassoc {ι κ μ : Type*} [Fintype ι] [Fintype κ] [Fintype μ]
    (x : ι → ℝ) (K : μ → ι → ℝ) (E : μ → κ → ℝ) (c w : κ → ℝ) :
    ∑ d1, x d1 * ∑ d2, (∑ m, K m d1 * E m d2) * c d2 * w d2
      = ∑ d2, (∑ m, (∑ d1, x d1 * K m d1) * (E m d2 * c d2)) * w d2 := by
  simp only [Finset.mul_sum, Finset.sum_mul]
  refine Finset.sum_comm.trans (Finset.sum_congr rfl fun d2 _ => ?_)
  refine Finset.sum_comm.trans (Finset.sum_congr rfl fun m _ => Finset.sum_congr rfl fun d1 _ => ?_)
  ring

/-! ### Every intermediate value is a real -/

section Real

variable (A : Fin 2048 → Fin 512 → ℝ)

/-- The row maxima of real scores are reals. -/
theorem rowMax_real : ∃ M : Fin 2048 → ℝ, ∀ n, rowMax (fun n d => (A n d : EReal)) n = (M n : EReal) := by
  have h : ∀ n, ∃ m : ℝ, rowMax (fun n d => (A n d : EReal)) n = (m : EReal) :=
    fun n => fold_max_real (fun d => A n d) ⟨0, Finset.mem_univ _⟩
  choose M hM using h
  exact ⟨M, hM⟩

/-- The column maxima of real scores are reals. -/
theorem colMax_real : ∃ M : Fin 512 → ℝ, ∀ d, colMax (fun n d => (A n d : EReal)) d = (M d : EReal) := by
  have h : ∀ d, ∃ m : ℝ, colMax (fun n d => (A n d : EReal)) d = (m : EReal) :=
    fun d => fold_max_real (fun n => A n d) ⟨0, Finset.mem_univ _⟩
  choose M hM using h
  exact ⟨M, hM⟩

/-- The row softmax of real scores is real: the shifted exponentials are real exponentials, their sum over a row is a
    positive real, and division by a nonzero real is multiplication by its reciprocal. -/
theorem keyW_real : ∃ K : Fin 2048 → Fin 512 → ℝ, ∀ n d, keyW (fun n d => (A n d : EReal)) n d = (K n d : EReal) := by
  obtain ⟨M, hM⟩ := rowMax_real A
  have hE : ∀ n d, rowExp (fun n d => (A n d : EReal)) n d = ((Real.exp (A n d - M n) : ℝ) : EReal) := by
    intro n d
    simp only [rowExp]
    rw [hM, ← EReal.coe_sub, Ideal.exp_coe]
  have hS : ∀ n, ∑ d' : Fin 512, rowExp (fun n d => (A n d : EReal)) n d'
      = ((∑ d' : Fin 512, Real.exp (A n d' - M n) : ℝ) : EReal) := by
    intro n
    rw [coe_finsum]
    exact Finset.sum_congr rfl fun d _ => hE n d
  have hpos : ∀ n, (∑ d' : Fin 512, Real.exp (A n d' - M n)) ≠ 0 :=
    fun n => (Finset.sum_pos (fun d _ => Real.exp_pos _) ⟨0, Finset.mem_univ _⟩).ne'
  refine ⟨fun n d => Real.exp (A n d - M n) * (1 / ∑ d' : Fin 512, Real.exp (A n d' - M n)), fun n d => ?_⟩
  simp only [keyW]
  rw [hS, hE, Ideal.div_coe (hpos n), ← EReal.coe_mul]

/-- The column-shifted exponentials of real scores are positive reals. -/
theorem colExp_real : ∃ E : Fin 2048 → Fin 512 → ℝ,
    (∀ n d, 0 < E n d) ∧ ∀ n d, colExp (fun n d => (A n d : EReal)) n d = (E n d : EReal) := by
  obtain ⟨M, hM⟩ := colMax_real A
  refine ⟨fun n d => Real.exp (A n d - M d), fun n d => Real.exp_pos _, fun n d => ?_⟩
  simp only [colExp]
  rw [hM, ← EReal.coe_sub, Ideal.exp_coe]

end Real

/-! ### The two contraction orders agree -/

/-- With real scores, values and projection the kernel's formula is the reference's: the shifted exponentials and
    their sums are positive reals, so each quotient is a real quotient, the four tile sums are the sum over all
    2048 rows, and the three contractions re-associate. -/
theorem kerOut_eq_refOut (a x : Fin 2048 → Fin 512 → EReal) (W : Fin 512 → Fin 512 → EReal) (bv : Fin 512 → EReal)
    (ha : ∀ n d, ∃ r : ℝ, a n d = (r : EReal)) (hx : ∀ n d, ∃ r : ℝ, x n d = (r : EReal))
    (hW : ∀ e d, ∃ r : ℝ, W e d = (r : EReal)) (n : Fin 2048) (e : Fin 512) :
    kerOut a x W bv n e = refOut a x W bv n e := by
  choose A hA using ha
  choose X hX using hx
  choose Wr hWr using hW
  obtain rfl : a = fun n d => (A n d : EReal) := by funext n d; exact hA n d
  obtain ⟨K, hK⟩ := keyW_real A
  obtain ⟨E, hEpos, hE⟩ := colExp_real A
  -- the column sums are positive reals, whether taken at once or tile by tile
  have hD : ∀ d2, (∑ m : Fin 2048, E m d2) ≠ 0 :=
    fun d2 => (Finset.sum_pos (fun m _ => hEpos m d2) ⟨0, Finset.mem_univ _⟩).ne'
  have hden : ∀ d2, colDen (fun n d => (A n d : EReal)) d2 = ((∑ m : Fin 2048, E m d2 : ℝ) : EReal) := by
    intro d2
    rw [colDen, coe_finsum]
    exact Finset.sum_congr rfl fun m _ => hE m d2
  have hdq : ∀ d2, dq (fun n d => (A n d : EReal)) d2 = ((∑ m : Fin 2048, E m d2 : ℝ) : EReal) :=
    fun d2 => (sum_tiles (fun m => colExp (fun n d => (A n d : EReal)) m d2)).trans (hden d2)
  -- the accumulated product is the real sum over all rows
  have hktq : ∀ d1 d2, ktq (fun n d => (A n d : EReal)) d1 d2 = ((∑ m : Fin 2048, K m d1 * E m d2 : ℝ) : EReal) := by
    intro d1 d2
    refine (sum_tiles (fun m => keyW (fun n d => (A n d : EReal)) m d1 * colExp (fun n d => (A n d : EReal)) m d2)).trans ?_
    rw [coe_finsum]
    refine Finset.sum_congr rfl fun m _ => ?_
    rw [hK, hE, EReal.coe_mul]
  have hdiv : ∀ (p : EReal) (d2 : Fin 512),
      Ideal.div p ((∑ m : Fin 2048, E m d2 : ℝ) : EReal) = p * ((1 / ∑ m : Fin 2048, E m d2 : ℝ) : EReal) :=
    fun p d2 => Ideal.div_coe (hD d2) p
  -- the kernel's side as one real
  have hker : (∑ d1 : Fin 512, x n d1 * projW (fun n d => (A n d : EReal)) W d1 e)
      = ((∑ d1 : Fin 512, X n d1 * ∑ d2 : Fin 512,
          (∑ m : Fin 2048, K m d1 * E m d2) * (1 / ∑ m : Fin 2048, E m d2) * Wr e d2 : ℝ) : EReal) := by
    simp only [projW, hktq, hdq, hdiv, hX, hWr, ← EReal.coe_mul, ← coe_finsum]
  -- the reference's side as one real
  have href : (∑ d2 : Fin 512, (∑ m : Fin 2048, (∑ d1 : Fin 512, x n d1 * keyW (fun n d => (A n d : EReal)) m d1)
        * Ideal.div (colExp (fun n d => (A n d : EReal)) m d2) (colDen (fun n d => (A n d : EReal)) d2)) * W e d2)
      = ((∑ d2 : Fin 512, (∑ m : Fin 2048, (∑ d1 : Fin 512, X n d1 * K m d1)
          * (E m d2 * (1 / ∑ m : Fin 2048, E m d2))) * Wr e d2 : ℝ) : EReal) := by
    simp only [hK, hE, hden, hdiv, hX, hWr, ← EReal.coe_mul, ← coe_finsum]
  rw [kerOut, refOut, hker, href,
    reassoc (fun d1 => X n d1) K E (fun d2 => 1 / ∑ m : Fin 2048, E m d2) (fun d2 => Wr e d2)]

end Cert.LinAttn

end
-- ==== Proof.Finite.lean ====
/-
  Under the precondition every entry of the three float arrays the law needs is a real number.
-/
import proofs.«418091_j12678743458547_3_alg».proof.Defs
import proofs.«418091_j12678743458547_3_alg».proof.Proof.Gen.Pre_finite_inputs
import Idealize.ShloMosaic.Lib.ReduceAll

noncomputable section

namespace Cert.FiniteInputs

open Idealize.ShloMosaic Idealize.SL.Sem Cert.KernelIdeal

/-- The scalar shape has exactly one index. -/
instance subsingleton_scalarIdx : Subsingleton Cert.Pre_finite_inputs.S_.Idx :=
  ⟨fun a b => funext fun d => d.elim0⟩

/-- The single-precision pattern of positive infinity denotes `⊤`. -/
theorem top_f32 : Ideal.ofBits .f32 0x7F800000#32 = (⊤ : EReal) := by
  simp [Ideal.ofBits, Ideal.ieee]

/-- An extended real whose absolute value `max x (-x)` is strictly below `+∞` is a real:
    for `x = ⊥` and `x = ⊤` the absolute value is `⊤`, which is not below itself. -/
theorem real_of_elt (x : EReal)
    (hx : Ideal.cmp .olt (max x (-x)) (Ideal.ofBits .f32 0x7F800000#32) = 1#1) :
    ∃ r : ℝ, x = (r : EReal) := by
  rw [top_f32] at hx
  induction x using EReal.rec with
  | bot => simp [Ideal.cmp] at hx
  | coe r => exact ⟨r, rfl⟩
  | top => simp [Ideal.cmp] at hx

/-- The precondition says each float input is finite everywhere; an extended real of finite absolute value is a real. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : S8x2048x512.Idx, ∃ r : ℝ, (m ((c.tc : Thread nD τ).loc main_arg0) : S8x2048x512.Idx → EReal) i = (r : EReal))
    ∧ (∀ i : S8x2048x512.Idx, ∃ r : ℝ, (m ((c.tc : Thread nD τ).loc main_arg1) : S8x2048x512.Idx → EReal) i = (r : EReal))
    ∧ (∀ i : S512x512.Idx, ∃ r : ℝ, (m ((c.tc : Thread nD τ).loc main_arg2) : S512x512.Idx → EReal) i = (r : EReal)) := by
  -- the predicate's one value is 1
  have h0 := congrFun (h c) (fun a => a.elim0)
  dsimp only [Cert.Pre_finite_inputs.fn, Cert.Pre_finite_inputs.fn_part1] at h0
  -- a conjunction of four that is 1 has each conjunct 1
  obtain ⟨h012, _⟩ := IntOp.andi_eq_one.1 h0
  obtain ⟨h01, h2⟩ := IntOp.andi_eq_one.1 h012
  obtain ⟨h0', h1⟩ := IntOp.andi_eq_one.1 h01
  -- an AND over every axis that is 1 met a 1 at every index: there `|x| < +∞`, so `x` is real
  refine ⟨fun i => ?_, fun i => ?_, fun i => ?_⟩
  · exact real_of_elt _ (Host.reduce_andi_all _ _ _ _ _ h0' i)
  · exact real_of_elt _ (Host.reduce_andi_all _ _ _ _ _ h1 i)
  · exact real_of_elt _ (Host.reduce_andi_all _ _ _ _ _ h2 i)

end Cert.FiniteInputs

end
-- ==== Proof.lean ====
/-
  Linear cross-attention: the Pallas kernel against its jnp reference, over the extended reals.

  For each batch the reference computes  ((x · keyWᵀ) · query) · Wᵀ + b,  where keyW is the softmax of the scores over
  the features of a row and query their softmax over the rows of a feature. The kernel never forms the rows × rows
  product: per batch it accumulates keyWᵀ · exp(scores − column max) and the column sums of those exponentials over four
  tiles of 512 rows, divides, folds the projection in, and multiplies the values by the resulting 512 × 512 matrix.
  Rounding to bf16 on the way into the matrix products is the identity at the ideal values, and both programs shift
  each softmax by the same maxima, so the two results differ only in the order of finite sums and in where the
  division by the column sums is done: equal over the reals (`Cert.LinAttn.kerOut_eq_refOut`), which is where the
  precondition — every float input finite — is used.

  The frames of the two kernels are the generated ones; the reference's frame is its generated run with the result
  dropped; the idealization rewrote nothing, so `preserves` is trivial. For the value claim the kernel's run is read
  block by block (`Cert.KernelIdeal.Blocks.final`: the result array is `G` of the argument arrays) and the reference's
  stage by stage (`Cert.ReferenceIdeal.RefIs.ref_apply`).
-/
import proofs.«418091_j12678743458547_3_alg».proof.Defs
import proofs.«418091_j12678743458547_3_alg».proof.Proof.Gen.Kernel
import proofs.«418091_j12678743458547_3_alg».proof.Proof.Gen.Kernel.Skeleton
import proofs.«418091_j12678743458547_3_alg».proof.Proof.Gen.Kernel.Loops
import proofs.«418091_j12678743458547_3_alg».proof.Proof.Gen.Kernel.Launch
import proofs.«418091_j12678743458547_3_alg».proof.Proof.Gen.Kernel.Points
import proofs.«418091_j12678743458547_3_alg».proof.Proof.Gen.Kernel.Frame
import proofs.«418091_j12678743458547_3_alg».proof.Proof.Gen.KernelIdeal
import proofs.«418091_j12678743458547_3_alg».proof.Proof.Gen.KernelIdeal.Skeleton
import proofs.«418091_j12678743458547_3_alg».proof.Proof.Gen.KernelIdeal.Loops
import proofs.«418091_j12678743458547_3_alg».proof.Proof.Gen.KernelIdeal.Launch
import proofs.«418091_j12678743458547_3_alg».proof.Proof.Gen.KernelIdeal.Points
import proofs.«418091_j12678743458547_3_alg».proof.Proof.Gen.KernelIdeal.Frame
import proofs.«418091_j12678743458547_3_alg».proof.Proof.Gen.ReferenceIdeal
import proofs.«418091_j12678743458547_3_alg».proof.Proof.Gen.Pre_finite_inputs
import proofs.«418091_j12678743458547_3_alg».proof.Proof.Gen.KernelIdeal.Value
import proofs.«418091_j12678743458547_3_alg».proof.Proof.Gen.ReferenceIdeal.Run
import proofs.«418091_j12678743458547_3_alg».proof.Proof.Gen.ReferenceIdeal.Read
import proofs.«418091_j12678743458547_3_alg».proof.Proof.Blocks
import proofs.«418091_j12678743458547_3_alg».proof.Proof.RefIs
import proofs.«418091_j12678743458547_3_alg».proof.Proof.SpecLaw
import proofs.«418091_j12678743458547_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the array `G` of the arguments: the kernel by
    its blocks, the reference stage by stage and then by the law that re-associates the three contractions, which
    holds because the precondition makes every entry a real number. -/
theorem algebraic : Cert.algebraic_KernelIdeal_ReferenceIdeal := by
  intro m ρ m' ρ' hpre hagree
  refine ⟨fun c => Cert.KernelIdeal.Blocks.GV m c, ?_, ?_⟩
  · exact (θ_run Cert.KernelIdeal.defs _ _).mono
      (fun r h c => ⟨(h c).1.trans (Cert.KernelIdeal.Blocks.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v27_eq (F := Ideal) _ _ _ _).trans ?_
    rw [(hagree c).1, (hagree c).2.1, (hagree c).2.2.1, (hagree c).2.2.2]
    obtain ⟨h0, h1, h2⟩ := Cert.FiniteInputs.real_of_pre m hpre c
    funext i
    rw [Cert.ReferenceIdeal.RefIs.ref_apply]
    exact (Cert.LinAttn.kerOut_eq_refOut _ _ _ _ (fun _ _ => h1 _) (fun _ _ => h0 _) (fun _ _ => h2 _) _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
